-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel

variable [Facts]

def fn {F : FTy → Type} [FloatOps F] (main_arg0 : FVec F S1024x16384 .f32) (main_arg1 : FVec F S1024x16384 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  main_v8
-- ==== Kernel.lean ====
abbrev S1024x16384 : Shape := ⟨2, ![1024, 16384]⟩
abbrev S1024 : Shape := ⟨1, ![1024]⟩
abbrev S512x1024 : Shape := ⟨2, ![512, 1024]⟩
abbrev S512 : Shape := ⟨1, ![512]⟩
abbrev S_ : Shape := ⟨0, ![]⟩

abbrev nBuf : Space → Nat
  | .hbm => 60
  | .vmem => 14
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .i1⟩
  | .hbm, ⟨30, _⟩ => ⟨S_, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .i1⟩
  | .hbm, ⟨38, _⟩ => ⟨S_, .f32⟩
  | .hbm, ⟨39, _⟩ => ⟨S1024, .f32⟩
  | .hbm, ⟨40, _⟩ => ⟨S1024, .i1⟩
  | .hbm, ⟨41, _⟩ => ⟨S1024, .i1⟩
  | .hbm, ⟨42, _⟩ => ⟨S_, .f32⟩
  | .hbm, ⟨43, _⟩ => ⟨S1024, .f32⟩
  | .hbm, ⟨44, _⟩ => ⟨S1024, .i1⟩
  | .hbm, ⟨45, _⟩ => ⟨S1024, .i1⟩
  | .hbm, ⟨46, _⟩ => ⟨S1024, .i1⟩
  | .hbm, ⟨47, _⟩ => ⟨S1024, .i1⟩
  | .hbm, ⟨48, _⟩ => ⟨S1024, .i1⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_call1_v0 : Ref sig .tc := ⟨.hbm, 53, rfl⟩
abbrev main_call1_v1 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  inb_S512_S512_0 : ∀ a, (![0] : Fin 1 → Nat) a + S512.size a ≤ S512.size a
  h_S512 : 0 < S512.numel
  shapeCasts_S512_S512 : S512.ShapeCasts S512
  bcast_S_S1024 : S_.BroadcastsInDim S1024 (![] : Fin 0 → Fin S1024.rank)
  reducesTo_S1024_S_d0 : S1024.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x16384.size a
  hwx0_0 : ∀ i : grid0.Coords, EltTy.bits .f32 = 32 ∨ (Rect.block (s := S1024x16384) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x16384.size a
  hwx0_1 : ∀ i : grid0.Coords, EltTy.bits .f32 = 32 ∨ (Rect.block (s := S1024x16384) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S1024.size a
  hwx0_2 : ∀ i : grid0.Coords, EltTy.bits .f32 = 32 ∨ (Rect.block (s := S1024) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S1024.size a
  hwx0_3 : ∀ i : grid0.Coords, EltTy.bits .f32 = 32 ∨ (Rect.block (s := S1024) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S1024.size a
  hwx0_4 : ∀ i : grid0.Coords, EltTy.bits .f32 = 32 ∨ (Rect.block (s := S1024) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S1024.size a
  hwx0_5 : ∀ i : grid0.Coords, EltTy.bits .f32 = 32 ∨ (Rect.block (s := S1024) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S1024.size a
  hwx0_6 : ∀ i : grid0.Coords, EltTy.bits .f32 = 32 ∨ (Rect.block (s := S1024) S512.size (cc0_transform_6 i) (hinb0_6 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond1 i == 1#1) && !(k0_cond2 i == 1#1) | 3 => fun i => !(k0_cond1 i == 1#1) && !(k0_cond2 i == 1#1) | 4 => fun i => !(k0_cond1 i == 1#1) && !(k0_cond2 i == 1#1) | 5 => fun i => !(k0_cond1 i == 1#1) && !(k0_cond2 i == 1#1) | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S1024x16384 : Shape := ⟨2, ![1024, 16384]⟩
abbrev S_ : Shape := ⟨0, ![]⟩
abbrev S1024 : Shape := ⟨1, ![1024]⟩
abbrev S1024x1 : Shape := ⟨2, ![1024, 1]⟩

abbrev nBuf : Space → Nat
  | .hbm => 68
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S_, .f32⟩
  | .hbm, ⟨3, _⟩ => ⟨S1024, .f32⟩
  | .hbm, ⟨4, _⟩ => ⟨S1024x1, .f32⟩
  | .hbm, ⟨5, _⟩ => ⟨S_, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x16384, .f32⟩
  | .hbm, ⟨15, _⟩ => ⟨S1024x16384, .f32⟩
  | .hbm, ⟨16, _⟩ => ⟨S1024x16384, .f32⟩
  | .hbm, ⟨17, _⟩ => ⟨S1024x16384, .f32⟩
  | .hbm, ⟨18, _⟩ => ⟨S1024x16384, .f32⟩
  | .hbm, ⟨19, _⟩ => ⟨S_, .f32⟩
  | .hbm, ⟨20, _⟩ => ⟨S1024, .f32⟩
  | .hbm, ⟨21, _⟩ => ⟨S1024x16384, .f32⟩
  | .hbm, ⟨22, _⟩ => ⟨S_, .f32⟩
  | .hbm, ⟨23, _⟩ => ⟨S1024, .f32⟩
  | .hbm, ⟨24, _⟩ => ⟨S1024x16384, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .i1⟩
  | .hbm, ⟨38, _⟩ => ⟨S_, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .i1⟩
  | .hbm, ⟨46, _⟩ => ⟨S_, .f32⟩
  | .hbm, ⟨47, _⟩ => ⟨S1024, .f32⟩
  | .hbm, ⟨48, _⟩ => ⟨S1024, .i1⟩
  | .hbm, ⟨49, _⟩ => ⟨S1024, .i1⟩
  | .hbm, ⟨50, _⟩ => ⟨S_, .f32⟩
  | .hbm, ⟨51, _⟩ => ⟨S1024, .f32⟩
  | .hbm, ⟨52, _⟩ => ⟨S1024, .i1⟩
  | .hbm, ⟨53, _⟩ => ⟨S1024, .i1⟩
  | .hbm, ⟨54, _⟩ => ⟨S1024, .i1⟩
  | .hbm, ⟨55, _⟩ => ⟨S1024, .i1⟩
  | .hbm, ⟨56, _⟩ => ⟨S1024, .i1⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_12 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_call1_v0 : Ref sig .tc := ⟨.hbm, 61, rfl⟩
abbrev main_call1_v1 : Ref sig .tc := ⟨.hbm, 62, rfl⟩
abbrev main_v41 : Ref sig .tc := ⟨.hbm, 63, rfl⟩
abbrev main_cst_15 : Ref sig .tc := ⟨.hbm, 64, rfl⟩
abbrev main_v42 : Ref sig .tc := ⟨.hbm, 65, rfl⟩
abbrev main_cst_16 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  reducesTo_S1024x16384_S1024_d1 : S1024x16384.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x16384_0_1 : S1024x1.BroadcastsInDim S1024x16384 (![0, 1] : Fin 2 → Fin S1024x16384.rank)
  bcast_S_S1024 : S_.BroadcastsInDim S1024 (![] : Fin 0 → Fin S1024.rank)
  reducesTo_S1024_S_d0 : S1024.ReducesTo [0] S_

variable [Facts₀]

class Facts : Prop extends Facts₀ where

variable [Facts]
-- ==== Proof.FrameK.Shared.lean ====
/-
  The row-statistics kernel runs on the grid 2 × 16: point t has row tile t / 16 and column tile t % 16.
  Its body takes one of two paths. On the first column tile of a row tile (t % 16 = 0) it stores the
  five row sums of the current 512 × 1024 blocks into the five output blocks; on every later column
  tile (t % 16 ≠ 0) it adds them to what the output blocks hold. This module decides the two branch
  conditions over the grid in closed form and names the staging memrefs of a point.
-/
import proofs.«173367_j5145370820692_1_alg».proof.Proof.Gen.Kernel.Frame
import proofs.«173367_j5145370820692_1_alg».proof.Proof.Gen.Kernel.Skeleton

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch (`j == 0`) is taken exactly at the points whose column tile is the first. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (`j > 0`) is taken exactly at the other points. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- The grid has 32 points. -/
theorem N_eq : cfg0.N = 32 := by decide

/-- No output window is idle at any grid point: one of the two branches is always taken. -/
theorem live2 : ∀ i : grid0.Coords, cfg0.idle 2 i = false := by decide
theorem live3 : ∀ i : grid0.Coords, cfg0.idle 3 i = false := by decide
theorem live4 : ∀ i : grid0.Coords, cfg0.idle 4 i = false := by decide
theorem live5 : ∀ i : grid0.Coords, cfg0.idle 5 i = false := by decide
theorem live6 : ∀ i : grid0.Coords, cfg0.idle 6 i = false := by decide

/-- A view of the output blocks' shape through which a block's contents are read back from its stores. -/
abbrev VO : View sig .tc .vmem S512 .f32 := (Memref.whole cc0_stg2_0 : Memref sig .tc .vmem S512 .f32).view

/-- The current staging memref of each window at point `t`, as the pipeline passes it to the body. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512 .f32 := win0_6.stage (cfg0.slots t 6)
abbrev hs6 (t : Fin cfg0.N) : (ms6 t).IsWhole := hstage0_6 ((cfg0.slots t 6).cast nbuf0_6)

end Cert.Kernel.Stats

end
-- ==== Proof.FrameK.RunReset.lean ====
/-
  The body on the first column tile of a row tile: both input blocks are read, each output block is
  loaded (the value is not used) and then stored whole with the block's row sums. The run below finds,
  for each output block, the pieces its stores leave.
-/
import proofs.«173367_j5145370820692_1_alg».proof.Proof.FrameK.Shared

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where the first branch is taken and the second is not: on whole staging memrefs, the inputs at
    their blocks `x0`, `x1` and the outputs at anything, it runs to a continuation that holds the inputs as they
    were and each output block with the pieces `L2 … L6` written. -/
noncomputable def runReset (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1)
    (x0 : Vec F S512x1024 .f32) (x1 : Vec F S512x1024 .f32) :
    Σ' (L2 : List (View.Piece (Elt F) S512 .f32)), Σ' (L3 : List (View.Piece (Elt F) S512 .f32)), Σ' (L4 : List (View.Piece (Elt F) S512 .f32)), Σ' (L5 : List (View.Piece (Elt F) S512 .f32)), { L6 : List (View.Piece (Elt F) S512 .f32) //
      ∀ (E : Set ℕ) (K : PUnit → sProp 𝕄),
        iprop(owns (c : Thread nD τ) a2 fullShare x0 ∗ owns (c : Thread nD τ) a3 fullShare x1
            ∗ (∃ d, owns (c : Thread nD τ) a4 fullShare d) ∗ (∃ d, owns (c : Thread nD τ) a5 fullShare d) ∗ (∃ d, owns (c : Thread nD τ) a6 fullShare d)
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1
                ∗ (∃ f, a4.view.loc (c : Thread nD τ) ↦[a4.view.set]{fullShare} a4.view.writes (Elt F) f L2) ∗ (∃ f, a5.view.loc (c : Thread nD τ) ↦[a5.view.set]{fullShare} a5.view.writes (Elt F) f L3) ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6)) -∗ K ⟨⟩))
          ⊢ wp frame (wpE (defs₀ (F := F)) Variants.none c none) E (cc0__stats_kernel i a2 h2 a3 h3 a4 h4 a5 h5 a6 h6 a7 h7 a8 h8) K } := by
  refine ⟨?_, ?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, Hk⟩
    obtain rfl := h2.eq_unread hf0; obtain rfl := h3.eq_unread hf1
    obtain rfl := h4.eq_unread hf2; obtain rfl := h5.eq_unread hf3; obtain rfl := h6.eq_unread hf4
    obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Stats

end
-- ==== Proof.FrameK.RunAdd.lean ====
/-
  The body on a later column tile of a row tile: both input blocks are read, and each output block is
  loaded at its running contents and stored whole with those contents plus the block's row sums. The
  run below finds, for each output block, the pieces its stores leave.
-/
import proofs.«173367_j5145370820692_1_alg».proof.Proof.FrameK.RunReset

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where the first branch is not taken and the second is: on whole staging memrefs, the inputs at
    their blocks `x0`, `x1` and the outputs at their running contents `xo2 … xo6`, it runs to a continuation that
    holds the inputs as they were and each output block with the pieces `L2 … L6` written. -/
noncomputable def runAdd (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1)
    (x0 : Vec F S512x1024 .f32) (x1 : Vec F S512x1024 .f32)
    (xo2 : Vec F S512 .f32) (xo3 : Vec F S512 .f32) (xo4 : Vec F S512 .f32) (xo5 : Vec F S512 .f32) (xo6 : Vec F S512 .f32) :
    Σ' (L2 : List (View.Piece (Elt F) S512 .f32)), Σ' (L3 : List (View.Piece (Elt F) S512 .f32)), Σ' (L4 : List (View.Piece (Elt F) S512 .f32)), Σ' (L5 : List (View.Piece (Elt F) S512 .f32)), { L6 : List (View.Piece (Elt F) S512 .f32) //
      ∀ (E : Set ℕ) (K : PUnit → sProp 𝕄),
        iprop(owns (c : Thread nD τ) a2 fullShare x0 ∗ owns (c : Thread nD τ) a3 fullShare x1
            ∗ owns (c : Thread nD τ) a4 fullShare xo2 ∗ owns (c : Thread nD τ) a5 fullShare xo3 ∗ owns (c : Thread nD τ) a6 fullShare xo4
            ∗ owns (c : Thread nD τ) a7 fullShare xo5 ∗ owns (c : Thread nD τ) a8 fullShare xo6
            ∗ (iprop(owns (c : Thread nD τ) a2 fullShare x0 ∗ owns (c : Thread nD τ) a3 fullShare x1
                ∗ (∃ f, a4.view.loc (c : Thread nD τ) ↦[a4.view.set]{fullShare} a4.view.writes (Elt F) f L2) ∗ (∃ f, a5.view.loc (c : Thread nD τ) ↦[a5.view.set]{fullShare} a5.view.writes (Elt F) f L3) ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6)) -∗ K ⟨⟩))
          ⊢ wp frame (wpE (defs₀ (F := F)) Variants.none c none) E (cc0__stats_kernel i a2 h2 a3 h3 a4 h4 a5 h5 a6 h6 a7 h7 a8 h8) K } := by
  refine ⟨?_, ?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1
    obtain rfl := h4.eq_unread hf2; obtain rfl := h5.eq_unread hf3; obtain rfl := h6.eq_unread hf4
    obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Stats

end
-- ==== Proof.FrameK.Data.lean ====
/-
  What the five output blocks hold after each grid point, and the pipeline's proof data.

  On the first column tile of a row tile each output block is the block's row statistic; on a later
  column tile it is what the point before left plus the block's row statistic. The output blocks are
  written back only after the last column tile of a row tile (points ≡ 15 mod 16), so between two
  points of one row tile the staging buffer still holds what the earlier point left.
-/
import proofs.«173367_j5145370820692_1_alg».proof.Proof.FrameK.RunAdd

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover each output block -/

/-- The reset case's pieces for output window 2 cover its block. -/
theorem coverReset2 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).1, y ∈ pc.1.set :=
  View.cover_of_tiledL (runReset c i a2 h2 a3 h3 a4 h4 a5 h5 a6 h6 a7 h7 a8 h8 hc1 hc2 x0 x1).1 S512.size (by sl_kernel_rfl) y

/-- What the reset case leaves in output window 2's block: its pieces read back. -/
def outReset2 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).1)

/-- The add case's pieces for output window 2 cover its block. -/
theorem coverAdd2 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).1, y ∈ pc.1.set :=
  View.cover_of_tiledL (runAdd c i a2 h2 a3 h3 a4 h4 a5 h5 a6 h6 a7 h7 a8 h8 hc1 hc2 x0 x1 xo2 xo3 xo4 xo5 xo6).1 S512.size (by sl_kernel_rfl) y

/-- What the add case leaves in output window 2's block: its pieces read back. -/
def outAdd2 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).1)

/-- The reset case's pieces for output window 3 cover its block. -/
theorem coverReset3 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).2.1, y ∈ pc.1.set :=
  View.cover_of_tiledL (runReset c i a2 h2 a3 h3 a4 h4 a5 h5 a6 h6 a7 h7 a8 h8 hc1 hc2 x0 x1).2.1 S512.size (by sl_kernel_rfl) y

/-- What the reset case leaves in output window 3's block: its pieces read back. -/
def outReset3 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).2.1)

/-- The add case's pieces for output window 3 cover its block. -/
theorem coverAdd3 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).2.1, y ∈ pc.1.set :=
  View.cover_of_tiledL (runAdd c i a2 h2 a3 h3 a4 h4 a5 h5 a6 h6 a7 h7 a8 h8 hc1 hc2 x0 x1 xo2 xo3 xo4 xo5 xo6).2.1 S512.size (by sl_kernel_rfl) y

/-- What the add case leaves in output window 3's block: its pieces read back. -/
def outAdd3 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).2.1)

/-- The reset case's pieces for output window 4 cover its block. -/
theorem coverReset4 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).2.2.1, y ∈ pc.1.set :=
  View.cover_of_tiledL (runReset c i a2 h2 a3 h3 a4 h4 a5 h5 a6 h6 a7 h7 a8 h8 hc1 hc2 x0 x1).2.2.1 S512.size (by sl_kernel_rfl) y

/-- What the reset case leaves in output window 4's block: its pieces read back. -/
def outReset4 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).2.2.1)

/-- The add case's pieces for output window 4 cover its block. -/
theorem coverAdd4 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).2.2.1, y ∈ pc.1.set :=
  View.cover_of_tiledL (runAdd c i a2 h2 a3 h3 a4 h4 a5 h5 a6 h6 a7 h7 a8 h8 hc1 hc2 x0 x1 xo2 xo3 xo4 xo5 xo6).2.2.1 S512.size (by sl_kernel_rfl) y

/-- What the add case leaves in output window 4's block: its pieces read back. -/
def outAdd4 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).2.2.1)

/-- The reset case's pieces for output window 5 cover its block. -/
theorem coverReset5 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).2.2.2.1, y ∈ pc.1.set :=
  View.cover_of_tiledL (runReset c i a2 h2 a3 h3 a4 h4 a5 h5 a6 h6 a7 h7 a8 h8 hc1 hc2 x0 x1).2.2.2.1 S512.size (by sl_kernel_rfl) y

/-- What the reset case leaves in output window 5's block: its pieces read back. -/
def outReset5 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).2.2.2.1)

/-- The add case's pieces for output window 5 cover its block. -/
theorem coverAdd5 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).2.2.2.1, y ∈ pc.1.set :=
  View.cover_of_tiledL (runAdd c i a2 h2 a3 h3 a4 h4 a5 h5 a6 h6 a7 h7 a8 h8 hc1 hc2 x0 x1 xo2 xo3 xo4 xo5 xo6).2.2.2.1 S512.size (by sl_kernel_rfl) y

/-- What the add case leaves in output window 5's block: its pieces read back. -/
def outAdd5 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).2.2.2.1)

/-- The reset case's pieces for output window 6 cover its block. -/
theorem coverReset6 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).2.2.2.2.1, y ∈ pc.1.set :=
  View.cover_of_tiledL (runReset c i a2 h2 a3 h3 a4 h4 a5 h5 a6 h6 a7 h7 a8 h8 hc1 hc2 x0 x1).2.2.2.2.1 S512.size (by sl_kernel_rfl) y

/-- What the reset case leaves in output window 6's block: its pieces read back. -/
def outReset6 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).2.2.2.2.1)

/-- The add case's pieces for output window 6 cover its block. -/
theorem coverAdd6 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).2.2.2.2.1, y ∈ pc.1.set :=
  View.cover_of_tiledL (runAdd c i a2 h2 a3 h3 a4 h4 a5 h5 a6 h6 a7 h7 a8 h8 hc1 hc2 x0 x1 xo2 xo3 xo4 xo5 xo6).2.2.2.2.1 S512.size (by sl_kernel_rfl) y

/-- What the add case leaves in output window 6's block: its pieces read back. -/
def outAdd6 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).2.2.2.2.1)

/-! ## What the output blocks hold after each point -/

/-- The five output blocks after the body at position `n`, by recursion on the position: the reset case at the
    first column tile of a row tile, elsewhere the add case over what position `n - 1` left. -/
def outsAt (c : Dev nD) : (n : ℕ) → n < cfg0.N → Vec F S512 .f32 × Vec F S512 .f32 × Vec F S512 .f32 × Vec F S512 .f32 × Vec F S512 .f32
  | 0, hn =>
      (outReset2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
        outReset3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
        outReset4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
        outReset5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
        outReset6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩))
  | n + 1, hn =>
    if h0 : (n + 1) % 16 = 0 then
      (outReset2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩),
        outReset3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩),
        outReset4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩),
        outReset5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩),
        outReset6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩))
    else
      (outAdd2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
        outAdd3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
        outAdd4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
        outAdd5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
        outAdd6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2)

/-- `outsAt` at a first column tile: the reset case's contents. -/
theorem outsAt_reset (c : Dev nD) (t : Fin cfg0.N) (h0 : t.val % 16 = 0) :
    outsAt m c t.val t.isLt =
      (outReset2 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t),
        outReset3 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t),
        outReset4 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t),
        outReset5 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t),
        outReset6 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t)) := by
  obtain ⟨n, hn⟩ := t
  cases n with
  | zero => exact rfl
  | succ n => exact (dif_pos h0).trans rfl

/-- `outsAt` at a later column tile: the add case's contents over what the point before left. -/
theorem outsAt_add (c : Dev nD) (t : Fin cfg0.N) (h0 : ¬ t.val % 16 = 0) :
    outsAt m c t.val t.isLt =
      (outAdd2 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
        outAdd3 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
        outAdd4 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
        outAdd5 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
        outAdd6 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    buffer at its block and each output's at `outsAt`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2.1
    | ⟨5, _⟩ => (outsAt m c t.val t.isLt).2.2.2.1
    | ⟨6, _⟩ => (outsAt m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]
theorem after_4 (c : Dev nD) (t : Fin cfg0.N) : (dats m 0 c).after 4 t = (outsAt m c t.val t.isLt).2.2.1 := by dsimp only [dats]
theorem after_5 (c : Dev nD) (t : Fin cfg0.N) : (dats m 0 c).after 5 t = (outsAt m c t.val t.isLt).2.2.2.1 := by dsimp only [dats]
theorem after_6 (c : Dev nD) (t : Fin cfg0.N) : (dats m 0 c).after 6 t = (outsAt m c t.val t.isLt).2.2.2.2 := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later column tile output window 2's staging buffer holds what the body left at the point before: the point
    is not the first and the block was not written back in between. -/
theorem before_2_add (c : Dev nD) (t : Fin cfg0.N) (h0 : ¬ t.val % 16 = 0) (d) :
    (dats m 0 c).before 2 t d = (outsAt m c (t.val - 1) (Nat.lt_of_le_of_lt (Nat.sub_le _ _) t.isLt)).1 := by
  have hN : t.val < 32 := lt_of_lt_of_eq t.isLt N_eq
  rw [Dat.before_out_kept _ 2 rfl t (by omega) (Bool.eq_false_iff.mpr fun h => by have := (flush0_2 _).mp h; dsimp only at this; omega)
    live2 (fun _ _ => rfl)]
  dsimp only [dats]

/-- At a later column tile output window 3's staging buffer holds what the body left at the point before: the point
    is not the first and the block was not written back in between. -/
theorem before_3_add (c : Dev nD) (t : Fin cfg0.N) (h0 : ¬ t.val % 16 = 0) (d) :
    (dats m 0 c).before 3 t d = (outsAt m c (t.val - 1) (Nat.lt_of_le_of_lt (Nat.sub_le _ _) t.isLt)).2.1 := by
  have hN : t.val < 32 := lt_of_lt_of_eq t.isLt N_eq
  rw [Dat.before_out_kept _ 3 rfl t (by omega) (Bool.eq_false_iff.mpr fun h => by have := (flush0_3 _).mp h; dsimp only at this; omega)
    live3 (fun _ _ => rfl)]
  dsimp only [dats]

/-- At a later column tile output window 4's staging buffer holds what the body left at the point before: the point
    is not the first and the block was not written back in between. -/
theorem before_4_add (c : Dev nD) (t : Fin cfg0.N) (h0 : ¬ t.val % 16 = 0) (d) :
    (dats m 0 c).before 4 t d = (outsAt m c (t.val - 1) (Nat.lt_of_le_of_lt (Nat.sub_le _ _) t.isLt)).2.2.1 := by
  have hN : t.val < 32 := lt_of_lt_of_eq t.isLt N_eq
  rw [Dat.before_out_kept _ 4 rfl t (by omega) (Bool.eq_false_iff.mpr fun h => by have := (flush0_4 _).mp h; dsimp only at this; omega)
    live4 (fun _ _ => rfl)]
  dsimp only [dats]

/-- At a later column tile output window 5's staging buffer holds what the body left at the point before: the point
    is not the first and the block was not written back in between. -/
theorem before_5_add (c : Dev nD) (t : Fin cfg0.N) (h0 : ¬ t.val % 16 = 0) (d) :
    (dats m 0 c).before 5 t d = (outsAt m c (t.val - 1) (Nat.lt_of_le_of_lt (Nat.sub_le _ _) t.isLt)).2.2.2.1 := by
  have hN : t.val < 32 := lt_of_lt_of_eq t.isLt N_eq
  rw [Dat.before_out_kept _ 5 rfl t (by omega) (Bool.eq_false_iff.mpr fun h => by have := (flush0_5 _).mp h; dsimp only at this; omega)
    live5 (fun _ _ => rfl)]
  dsimp only [dats]

/-- At a later column tile output window 6's staging buffer holds what the body left at the point before: the point
    is not the first and the block was not written back in between. -/
theorem before_6_add (c : Dev nD) (t : Fin cfg0.N) (h0 : ¬ t.val % 16 = 0) (d) :
    (dats m 0 c).before 6 t d = (outsAt m c (t.val - 1) (Nat.lt_of_le_of_lt (Nat.sub_le _ _) t.isLt)).2.2.2.2 := by
  have hN : t.val < 32 := lt_of_lt_of_eq t.isLt N_eq
  rw [Dat.before_out_kept _ 6 rfl t (by omega) (Bool.eq_false_iff.mpr fun h => by have := (flush0_6 _).mp h; dsimp only at this; omega)
    live6 (fun _ _ => rfl)]
  dsimp only [dats]

/-- No window is idle at any point. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel

end Cert.Kernel.Stats

end
-- ==== Proof.FrameK.Obligation.lean ====
/-
  The body obligation at every grid point, the run of @main, and the frame.

  At a point the body is handed the seven current staging buffers: the two inputs at their blocks, and
  each output at anything (first column tile of a row tile) or at what the point before left (later
  column tiles). The point's case is decided from t % 16; that case's run applies, and each output
  buffer ends at its stores read back, which is what the proof data says the point leaves.
-/
import proofs.«173367_j5145370820692_1_alg».proof.Proof.FrameK.Data

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- Window 0 is live at every point, so the body leaves its buffer at the proof data's `after`. -/
theorem leaves_0 (c : Dev nD) (t : Fin cfg0.N) :
    (dats m 0 c).leavesExact 0 t = owns (c : Thread nD τ) (ms0 t) fullShare ((dats m 0 c).after 0 t) := by
  unfold Dat.leavesExact; rw [liveAt_0 t]
/-- Window 1 is live at every point, so the body leaves its buffer at the proof data's `after`. -/
theorem leaves_1 (c : Dev nD) (t : Fin cfg0.N) :
    (dats m 0 c).leavesExact 1 t = owns (c : Thread nD τ) (ms1 t) fullShare ((dats m 0 c).after 1 t) := by
  unfold Dat.leavesExact; rw [liveAt_1 t]
/-- Window 2 is live at every point, so the body leaves its buffer at the proof data's `after`. -/
theorem leaves_2 (c : Dev nD) (t : Fin cfg0.N) :
    (dats m 0 c).leavesExact 2 t = owns (c : Thread nD τ) (ms2 t) fullShare ((dats m 0 c).after 2 t) := by
  unfold Dat.leavesExact; rw [liveAt_2 t]
/-- Window 3 is live at every point, so the body leaves its buffer at the proof data's `after`. -/
theorem leaves_3 (c : Dev nD) (t : Fin cfg0.N) :
    (dats m 0 c).leavesExact 3 t = owns (c : Thread nD τ) (ms3 t) fullShare ((dats m 0 c).after 3 t) := by
  unfold Dat.leavesExact; rw [liveAt_3 t]
/-- Window 4 is live at every point, so the body leaves its buffer at the proof data's `after`. -/
theorem leaves_4 (c : Dev nD) (t : Fin cfg0.N) :
    (dats m 0 c).leavesExact 4 t = owns (c : Thread nD τ) (ms4 t) fullShare ((dats m 0 c).after 4 t) := by
  unfold Dat.leavesExact; rw [liveAt_4 t]
/-- Window 5 is live at every point, so the body leaves its buffer at the proof data's `after`. -/
theorem leaves_5 (c : Dev nD) (t : Fin cfg0.N) :
    (dats m 0 c).leavesExact 5 t = owns (c : Thread nD τ) (ms5 t) fullShare ((dats m 0 c).after 5 t) := by
  unfold Dat.leavesExact; rw [liveAt_5 t]
/-- Window 6 is live at every point, so the body leaves its buffer at the proof data's `after`. -/
theorem leaves_6 (c : Dev nD) (t : Fin cfg0.N) :
    (dats m 0 c).leavesExact 6 t = owns (c : Thread nD τ) (ms6 t) fullShare ((dats m 0 c).after 6 t) := by
  unfold Dat.leavesExact; rw [liveAt_6 t]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6,
    after_0, after_1, after_2, after_3, after_4, after_5, after_6]
  have hN : t.val < 32 := lt_of_lt_of_eq t.isLt N_eq
  by_cases h0 : t.val % 16 = 0
  · rw [outsAt_reset m c t h0]
    unfold outReset2 outReset3 outReset4 outReset5 outReset6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((first_iff t).mpr h0) (fun h => (later_iff t).mp h h0) (iblk m c 0 t) (iblk m c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverReset2 c _ _ _ _ _ _ _ _ _ _ _ _ _ _ _ _ _ _ _)
    isplitl [H3]
    · unfold owns; iexists _; isplitr
      swap; · iexact H3
      ipureintro; exact View.read_writes_of_cover _ _ _ _ _ (coverReset3 c _ _ _ _ _ _ _ _ _ _ _ _ _ _ _ _ _ _ _)
    isplitl [H4]
    · unfold owns; iexists _; isplitr
      swap; · iexact H4
      ipureintro; exact View.read_writes_of_cover _ _ _ _ _ (coverReset4 c _ _ _ _ _ _ _ _ _ _ _ _ _ _ _ _ _ _ _)
    isplitl [H5]
    · unfold owns; iexists _; isplitr
      swap; · iexact H5
      ipureintro; exact View.read_writes_of_cover _ _ _ _ _ (coverReset5 c _ _ _ _ _ _ _ _ _ _ _ _ _ _ _ _ _ _ _)
    unfold owns; iexists _; isplitr
    swap; · iexact H6
    ipureintro; exact View.read_writes_of_cover _ _ _ _ _ (coverReset6 c _ _ _ _ _ _ _ _ _ _ _ _ _ _ _ _ _ _ _)
  · rw [outsAt_add m c t h0]
    simp only [before_2_add m c t h0, before_3_add m c t h0, before_4_add m c t h0, before_5_add m c t h0, before_6_add m c t h0]
    unfold outAdd2 outAdd3 outAdd4 outAdd5 outAdd6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAdd c (grid0.coords t) _ _ _ _ _ _ _ _ _ _ _ _ _ _ (fun h => h0 ((first_iff t).mp h)) ((later_iff t).mpr h0) (iblk m c 0 t) (iblk m c 1 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverAdd2 c _ _ _ _ _ _ _ _ _ _ _ _ _ _ _ _ _ _ _ _ _ _ _ _)
    isplitl [H3]
    · unfold owns; iexists _; isplitr
      swap; · iexact H3
      ipureintro; exact View.read_writes_of_cover _ _ _ _ _ (coverAdd3 c _ _ _ _ _ _ _ _ _ _ _ _ _ _ _ _ _ _ _ _ _ _ _ _)
    isplitl [H4]
    · unfold owns; iexists _; isplitr
      swap; · iexact H4
      ipureintro; exact View.read_writes_of_cover _ _ _ _ _ (coverAdd4 c _ _ _ _ _ _ _ _ _ _ _ _ _ _ _ _ _ _ _ _ _ _ _ _)
    isplitl [H5]
    · unfold owns; iexists _; isplitr
      swap; · iexact H5
      ipureintro; exact View.read_writes_of_cover _ _ _ _ _ (coverAdd5 c _ _ _ _ _ _ _ _ _ _ _ _ _ _ _ _ _ _ _ _ _ _ _ _)
    unfold owns; iexists _; isplitr
    swap; · iexact H6
    ipureintro; exact View.read_writes_of_cover _ _ _ _ _ (coverAdd6 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, every array of the pipeline ends at what the library computes
    from the proof data, and every other unscoped buffer at what the host lines after the region make of them. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The frame: the program runs to the end, faults nowhere, and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Stats

end
-- ==== Proof.FrameKI.Shared.lean ====
/-
  The row-statistics kernel runs on the grid 2 × 16: point t has row tile t / 16 and column tile t % 16.
  Its body takes one of two paths. On the first column tile of a row tile (t % 16 = 0) it stores the
  five row sums of the current 512 × 1024 blocks into the five output blocks; on every later column
  tile (t % 16 ≠ 0) it adds them to what the output blocks hold. This module decides the two branch
  conditions over the grid in closed form and names the staging memrefs of a point.
-/
import proofs.«173367_j5145370820692_1_alg».proof.Proof.Gen.KernelIdeal.Frame
import proofs.«173367_j5145370820692_1_alg».proof.Proof.Gen.KernelIdeal.Skeleton

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch (`j == 0`) is taken exactly at the points whose column tile is the first. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (`j > 0`) is taken exactly at the other points. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- The grid has 32 points. -/
theorem N_eq : cfg0.N = 32 := by decide

/-- No output window is idle at any grid point: one of the two branches is always taken. -/
theorem live2 : ∀ i : grid0.Coords, cfg0.idle 2 i = false := by decide
theorem live3 : ∀ i : grid0.Coords, cfg0.idle 3 i = false := by decide
theorem live4 : ∀ i : grid0.Coords, cfg0.idle 4 i = false := by decide
theorem live5 : ∀ i : grid0.Coords, cfg0.idle 5 i = false := by decide
theorem live6 : ∀ i : grid0.Coords, cfg0.idle 6 i = false := by decide

/-- A view of the output blocks' shape through which a block's contents are read back from its stores. -/
abbrev VO : View sig .tc .vmem S512 .f32 := (Memref.whole cc0_stg2_0 : Memref sig .tc .vmem S512 .f32).view

/-- The current staging memref of each window at point `t`, as the pipeline passes it to the body. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512 .f32 := win0_6.stage (cfg0.slots t 6)
abbrev hs6 (t : Fin cfg0.N) : (ms6 t).IsWhole := hstage0_6 ((cfg0.slots t 6).cast nbuf0_6)

end Cert.KernelIdeal.Stats

end
-- ==== Proof.FrameKI.RunReset.lean ====
/-
  The body on the first column tile of a row tile: both input blocks are read, each output block is
  loaded (the value is not used) and then stored whole with the block's row sums. The run below finds,
  for each output block, the pieces its stores leave.
-/
import proofs.«173367_j5145370820692_1_alg».proof.Proof.FrameKI.Shared

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where the first branch is taken and the second is not: on whole staging memrefs, the inputs at
    their blocks `x0`, `x1` and the outputs at anything, it runs to a continuation that holds the inputs as they
    were and each output block with the pieces `L2 … L6` written. -/
noncomputable def runReset (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1)
    (x0 : Vec F S512x1024 .f32) (x1 : Vec F S512x1024 .f32) :
    Σ' (L2 : List (View.Piece (Elt F) S512 .f32)), Σ' (L3 : List (View.Piece (Elt F) S512 .f32)), Σ' (L4 : List (View.Piece (Elt F) S512 .f32)), Σ' (L5 : List (View.Piece (Elt F) S512 .f32)), { L6 : List (View.Piece (Elt F) S512 .f32) //
      ∀ (E : Set ℕ) (K : PUnit → sProp 𝕄),
        iprop(owns (c : Thread nD τ) a2 fullShare x0 ∗ owns (c : Thread nD τ) a3 fullShare x1
            ∗ (∃ d, owns (c : Thread nD τ) a4 fullShare d) ∗ (∃ d, owns (c : Thread nD τ) a5 fullShare d) ∗ (∃ d, owns (c : Thread nD τ) a6 fullShare d)
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1
                ∗ (∃ f, a4.view.loc (c : Thread nD τ) ↦[a4.view.set]{fullShare} a4.view.writes (Elt F) f L2) ∗ (∃ f, a5.view.loc (c : Thread nD τ) ↦[a5.view.set]{fullShare} a5.view.writes (Elt F) f L3) ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6)) -∗ K ⟨⟩))
          ⊢ wp frame (wpE (defs₀ (F := F)) Variants.none c none) E (cc0__stats_kernel i a2 h2 a3 h3 a4 h4 a5 h5 a6 h6 a7 h7 a8 h8) K } := by
  refine ⟨?_, ?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, Hk⟩
    obtain rfl := h2.eq_unread hf0; obtain rfl := h3.eq_unread hf1
    obtain rfl := h4.eq_unread hf2; obtain rfl := h5.eq_unread hf3; obtain rfl := h6.eq_unread hf4
    obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Stats

end
-- ==== Proof.FrameKI.RunAdd.lean ====
/-
  The body on a later column tile of a row tile: both input blocks are read, and each output block is
  loaded at its running contents and stored whole with those contents plus the block's row sums. The
  run below finds, for each output block, the pieces its stores leave.
-/
import proofs.«173367_j5145370820692_1_alg».proof.Proof.FrameKI.RunReset

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where the first branch is not taken and the second is: on whole staging memrefs, the inputs at
    their blocks `x0`, `x1` and the outputs at their running contents `xo2 … xo6`, it runs to a continuation that
    holds the inputs as they were and each output block with the pieces `L2 … L6` written. -/
noncomputable def runAdd (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1)
    (x0 : Vec F S512x1024 .f32) (x1 : Vec F S512x1024 .f32)
    (xo2 : Vec F S512 .f32) (xo3 : Vec F S512 .f32) (xo4 : Vec F S512 .f32) (xo5 : Vec F S512 .f32) (xo6 : Vec F S512 .f32) :
    Σ' (L2 : List (View.Piece (Elt F) S512 .f32)), Σ' (L3 : List (View.Piece (Elt F) S512 .f32)), Σ' (L4 : List (View.Piece (Elt F) S512 .f32)), Σ' (L5 : List (View.Piece (Elt F) S512 .f32)), { L6 : List (View.Piece (Elt F) S512 .f32) //
      ∀ (E : Set ℕ) (K : PUnit → sProp 𝕄),
        iprop(owns (c : Thread nD τ) a2 fullShare x0 ∗ owns (c : Thread nD τ) a3 fullShare x1
            ∗ owns (c : Thread nD τ) a4 fullShare xo2 ∗ owns (c : Thread nD τ) a5 fullShare xo3 ∗ owns (c : Thread nD τ) a6 fullShare xo4
            ∗ owns (c : Thread nD τ) a7 fullShare xo5 ∗ owns (c : Thread nD τ) a8 fullShare xo6
            ∗ (iprop(owns (c : Thread nD τ) a2 fullShare x0 ∗ owns (c : Thread nD τ) a3 fullShare x1
                ∗ (∃ f, a4.view.loc (c : Thread nD τ) ↦[a4.view.set]{fullShare} a4.view.writes (Elt F) f L2) ∗ (∃ f, a5.view.loc (c : Thread nD τ) ↦[a5.view.set]{fullShare} a5.view.writes (Elt F) f L3) ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6)) -∗ K ⟨⟩))
          ⊢ wp frame (wpE (defs₀ (F := F)) Variants.none c none) E (cc0__stats_kernel i a2 h2 a3 h3 a4 h4 a5 h5 a6 h6 a7 h7 a8 h8) K } := by
  refine ⟨?_, ?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1
    obtain rfl := h4.eq_unread hf2; obtain rfl := h5.eq_unread hf3; obtain rfl := h6.eq_unread hf4
    obtain rfl := h7.eq_unread hf5; obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Stats

end
-- ==== Proof.FrameKI.Data.lean ====
/-
  What the five output blocks hold after each grid point, and the pipeline's proof data.

  On the first column tile of a row tile each output block is the block's row statistic; on a later
  column tile it is what the point before left plus the block's row statistic. The output blocks are
  written back only after the last column tile of a row tile (points ≡ 15 mod 16), so between two
  points of one row tile the staging buffer still holds what the earlier point left.
-/
import proofs.«173367_j5145370820692_1_alg».proof.Proof.FrameKI.RunAdd

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover each output block -/

/-- The reset case's pieces for output window 2 cover its block. -/
theorem coverReset2 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).1, y ∈ pc.1.set :=
  View.cover_of_tiledL (runReset c i a2 h2 a3 h3 a4 h4 a5 h5 a6 h6 a7 h7 a8 h8 hc1 hc2 x0 x1).1 S512.size (by sl_kernel_rfl) y

/-- What the reset case leaves in output window 2's block: its pieces read back. -/
def outReset2 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).1)

/-- The add case's pieces for output window 2 cover its block. -/
theorem coverAdd2 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).1, y ∈ pc.1.set :=
  View.cover_of_tiledL (runAdd c i a2 h2 a3 h3 a4 h4 a5 h5 a6 h6 a7 h7 a8 h8 hc1 hc2 x0 x1 xo2 xo3 xo4 xo5 xo6).1 S512.size (by sl_kernel_rfl) y

/-- What the add case leaves in output window 2's block: its pieces read back. -/
def outAdd2 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).1)

/-- The reset case's pieces for output window 3 cover its block. -/
theorem coverReset3 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).2.1, y ∈ pc.1.set :=
  View.cover_of_tiledL (runReset c i a2 h2 a3 h3 a4 h4 a5 h5 a6 h6 a7 h7 a8 h8 hc1 hc2 x0 x1).2.1 S512.size (by sl_kernel_rfl) y

/-- What the reset case leaves in output window 3's block: its pieces read back. -/
def outReset3 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).2.1)

/-- The add case's pieces for output window 3 cover its block. -/
theorem coverAdd3 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).2.1, y ∈ pc.1.set :=
  View.cover_of_tiledL (runAdd c i a2 h2 a3 h3 a4 h4 a5 h5 a6 h6 a7 h7 a8 h8 hc1 hc2 x0 x1 xo2 xo3 xo4 xo5 xo6).2.1 S512.size (by sl_kernel_rfl) y

/-- What the add case leaves in output window 3's block: its pieces read back. -/
def outAdd3 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).2.1)

/-- The reset case's pieces for output window 4 cover its block. -/
theorem coverReset4 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).2.2.1, y ∈ pc.1.set :=
  View.cover_of_tiledL (runReset c i a2 h2 a3 h3 a4 h4 a5 h5 a6 h6 a7 h7 a8 h8 hc1 hc2 x0 x1).2.2.1 S512.size (by sl_kernel_rfl) y

/-- What the reset case leaves in output window 4's block: its pieces read back. -/
def outReset4 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).2.2.1)

/-- The add case's pieces for output window 4 cover its block. -/
theorem coverAdd4 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).2.2.1, y ∈ pc.1.set :=
  View.cover_of_tiledL (runAdd c i a2 h2 a3 h3 a4 h4 a5 h5 a6 h6 a7 h7 a8 h8 hc1 hc2 x0 x1 xo2 xo3 xo4 xo5 xo6).2.2.1 S512.size (by sl_kernel_rfl) y

/-- What the add case leaves in output window 4's block: its pieces read back. -/
def outAdd4 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).2.2.1)

/-- The reset case's pieces for output window 5 cover its block. -/
theorem coverReset5 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).2.2.2.1, y ∈ pc.1.set :=
  View.cover_of_tiledL (runReset c i a2 h2 a3 h3 a4 h4 a5 h5 a6 h6 a7 h7 a8 h8 hc1 hc2 x0 x1).2.2.2.1 S512.size (by sl_kernel_rfl) y

/-- What the reset case leaves in output window 5's block: its pieces read back. -/
def outReset5 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).2.2.2.1)

/-- The add case's pieces for output window 5 cover its block. -/
theorem coverAdd5 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).2.2.2.1, y ∈ pc.1.set :=
  View.cover_of_tiledL (runAdd c i a2 h2 a3 h3 a4 h4 a5 h5 a6 h6 a7 h7 a8 h8 hc1 hc2 x0 x1 xo2 xo3 xo4 xo5 xo6).2.2.2.1 S512.size (by sl_kernel_rfl) y

/-- What the add case leaves in output window 5's block: its pieces read back. -/
def outAdd5 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).2.2.2.1)

/-- The reset case's pieces for output window 6 cover its block. -/
theorem coverReset6 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) (y : S512.Idx) :
    ∃ pc ∈ (runReset c i a2 h2 a3 h3 a4 h4 a5 h5 a6 h6 a7 h7 a8 h8 hc1 hc2 x0 x1).2.2.2.2.1, y ∈ pc.1.set :=
  View.cover_of_tiledL (runReset c i a2 h2 a3 h3 a4 h4 a5 h5 a6 h6 a7 h7 a8 h8 hc1 hc2 x0 x1).2.2.2.2.1 S512.size (by sl_kernel_rfl) y

/-- What the reset case leaves in output window 6's block: its pieces read back. -/
def outReset6 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : Vec F S512 .f32 :=
  VO.read (Elt F) (VO.writes (Elt F) VO.junk (runReset c i a2 h2 a3 h3 a4 h4 a5 h5 a6 h6 a7 h7 a8 h8 hc1 hc2 x0 x1).2.2.2.2.1)

/-- The add case's pieces for output window 6 cover its block. -/
theorem coverAdd6 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) (y : S512.Idx) :
    ∃ pc ∈ (runAdd c i a2 h2 a3 h3 a4 h4 a5 h5 a6 h6 a7 h7 a8 h8 hc1 hc2 x0 x1 xo2 xo3 xo4 xo5 xo6).2.2.2.2.1, y ∈ pc.1.set :=
  View.cover_of_tiledL (runAdd c i a2 h2 a3 h3 a4 h4 a5 h5 a6 h6 a7 h7 a8 h8 hc1 hc2 x0 x1 xo2 xo3 xo4 xo5 xo6).2.2.2.2.1 S512.size (by sl_kernel_rfl) y

/-- What the add case leaves in output window 6's block: its pieces read back. -/
def outAdd6 (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : Vec F S512 .f32 :=
  VO.read (Elt F) (VO.writes (Elt F) VO.junk (runAdd c i a2 h2 a3 h3 a4 h4 a5 h5 a6 h6 a7 h7 a8 h8 hc1 hc2 x0 x1 xo2 xo3 xo4 xo5 xo6).2.2.2.2.1)

/-! ## What the output blocks hold after each point -/

/-- The five output blocks after the body at position `n`, by recursion on the position: the reset case at the
    first column tile of a row tile, elsewhere the add case over what position `n - 1` left. -/
def outsAt (c : Dev nD) : (n : ℕ) → n < cfg0.N → Vec F S512 .f32 × Vec F S512 .f32 × Vec F S512 .f32 × Vec F S512 .f32 × Vec F S512 .f32
  | 0, hn =>
      (outReset2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
        outReset3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
        outReset4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
        outReset5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩),
        outReset6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩))
  | n + 1, hn =>
    if h0 : (n + 1) % 16 = 0 then
      (outReset2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩),
        outReset3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩),
        outReset4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩),
        outReset5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩),
        outReset6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((first_iff ⟨n + 1, hn⟩).mpr h0) (fun h => (later_iff ⟨n + 1, hn⟩).mp h h0) (iblk m c 0 ⟨n + 1, hn⟩) (iblk m c 1 ⟨n + 1, hn⟩))
    else
      (outAdd2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
        outAdd3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
        outAdd4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
        outAdd5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
        outAdd6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2)

/-- `outsAt` at a first column tile: the reset case's contents. -/
theorem outsAt_reset (c : Dev nD) (t : Fin cfg0.N) (h0 : t.val % 16 = 0) :
    outsAt m c t.val t.isLt =
      (outReset2 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t),
        outReset3 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t),
        outReset4 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t),
        outReset5 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t),
        outReset6 c (grid0.coords t) (ms0 t) (hs0 t) (ms1 t) (hs1 t) (ms2 t) (hs2 t) (ms3 t) (hs3 t) (ms4 t) (hs4 t) (ms5 t) (hs5 t) (ms6 t) (hs6 t) ((first_iff t).mpr h0) (fun h => (later_iff t).mp h h0) (iblk m c 0 t) (iblk m c 1 t)) := by
  obtain ⟨n, hn⟩ := t
  cases n with
  | zero => exact rfl
  | succ n => exact (dif_pos h0).trans rfl

/-- `outsAt` at a later column tile: the add case's contents over what the point before left. -/
theorem outsAt_add (c : Dev nD) (t : Fin cfg0.N) (h0 : ¬ t.val % 16 = 0) :
    outsAt m c t.val t.isLt =
      (outAdd2 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
        outAdd3 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
        outAdd4 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
        outAdd5 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
        outAdd6 c (grid0.coords t) (ms0 t) (hs0 t) (ms1 t) (hs1 t) (ms2 t) (hs2 t) (ms3 t) (hs3 t) (ms4 t) (hs4 t) (ms5 t) (hs5 t) (ms6 t) (hs6 t) (fun h => h0 ((first_iff t).mp h)) ((later_iff t).mpr h0) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    buffer at its block and each output's at `outsAt`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2.1
    | ⟨5, _⟩ => (outsAt m c t.val t.isLt).2.2.2.1
    | ⟨6, _⟩ => (outsAt m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]
theorem after_4 (c : Dev nD) (t : Fin cfg0.N) : (dats m 0 c).after 4 t = (outsAt m c t.val t.isLt).2.2.1 := by dsimp only [dats]
theorem after_5 (c : Dev nD) (t : Fin cfg0.N) : (dats m 0 c).after 5 t = (outsAt m c t.val t.isLt).2.2.2.1 := by dsimp only [dats]
theorem after_6 (c : Dev nD) (t : Fin cfg0.N) : (dats m 0 c).after 6 t = (outsAt m c t.val t.isLt).2.2.2.2 := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later column tile output window 2's staging buffer holds what the body left at the point before: the point
    is not the first and the block was not written back in between. -/
theorem before_2_add (c : Dev nD) (t : Fin cfg0.N) (h0 : ¬ t.val % 16 = 0) (d) :
    (dats m 0 c).before 2 t d = (outsAt m c (t.val - 1) (Nat.lt_of_le_of_lt (Nat.sub_le _ _) t.isLt)).1 := by
  have hN : t.val < 32 := lt_of_lt_of_eq t.isLt N_eq
  rw [Dat.before_out_kept _ 2 rfl t (by omega) (Bool.eq_false_iff.mpr fun h => by have := (flush0_2 _).mp h; dsimp only at this; omega)
    live2 (fun _ _ => rfl)]
  dsimp only [dats]

/-- At a later column tile output window 3's staging buffer holds what the body left at the point before: the point
    is not the first and the block was not written back in between. -/
theorem before_3_add (c : Dev nD) (t : Fin cfg0.N) (h0 : ¬ t.val % 16 = 0) (d) :
    (dats m 0 c).before 3 t d = (outsAt m c (t.val - 1) (Nat.lt_of_le_of_lt (Nat.sub_le _ _) t.isLt)).2.1 := by
  have hN : t.val < 32 := lt_of_lt_of_eq t.isLt N_eq
  rw [Dat.before_out_kept _ 3 rfl t (by omega) (Bool.eq_false_iff.mpr fun h => by have := (flush0_3 _).mp h; dsimp only at this; omega)
    live3 (fun _ _ => rfl)]
  dsimp only [dats]

/-- At a later column tile output window 4's staging buffer holds what the body left at the point before: the point
    is not the first and the block was not written back in between. -/
theorem before_4_add (c : Dev nD) (t : Fin cfg0.N) (h0 : ¬ t.val % 16 = 0) (d) :
    (dats m 0 c).before 4 t d = (outsAt m c (t.val - 1) (Nat.lt_of_le_of_lt (Nat.sub_le _ _) t.isLt)).2.2.1 := by
  have hN : t.val < 32 := lt_of_lt_of_eq t.isLt N_eq
  rw [Dat.before_out_kept _ 4 rfl t (by omega) (Bool.eq_false_iff.mpr fun h => by have := (flush0_4 _).mp h; dsimp only at this; omega)
    live4 (fun _ _ => rfl)]
  dsimp only [dats]

/-- At a later column tile output window 5's staging buffer holds what the body left at the point before: the point
    is not the first and the block was not written back in between. -/
theorem before_5_add (c : Dev nD) (t : Fin cfg0.N) (h0 : ¬ t.val % 16 = 0) (d) :
    (dats m 0 c).before 5 t d = (outsAt m c (t.val - 1) (Nat.lt_of_le_of_lt (Nat.sub_le _ _) t.isLt)).2.2.2.1 := by
  have hN : t.val < 32 := lt_of_lt_of_eq t.isLt N_eq
  rw [Dat.before_out_kept _ 5 rfl t (by omega) (Bool.eq_false_iff.mpr fun h => by have := (flush0_5 _).mp h; dsimp only at this; omega)
    live5 (fun _ _ => rfl)]
  dsimp only [dats]

/-- At a later column tile output window 6's staging buffer holds what the body left at the point before: the point
    is not the first and the block was not written back in between. -/
theorem before_6_add (c : Dev nD) (t : Fin cfg0.N) (h0 : ¬ t.val % 16 = 0) (d) :
    (dats m 0 c).before 6 t d = (outsAt m c (t.val - 1) (Nat.lt_of_le_of_lt (Nat.sub_le _ _) t.isLt)).2.2.2.2 := by
  have hN : t.val < 32 := lt_of_lt_of_eq t.isLt N_eq
  rw [Dat.before_out_kept _ 6 rfl t (by omega) (Bool.eq_false_iff.mpr fun h => by have := (flush0_6 _).mp h; dsimp only at this; omega)
    live6 (fun _ _ => rfl)]
  dsimp only [dats]

/-- No window is idle at any point. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel

end Cert.KernelIdeal.Stats

end
-- ==== Proof.FrameKI.Obligation.lean ====
/-
  The body obligation at every grid point, the run of @main, and the frame.

  At a point the body is handed the seven current staging buffers: the two inputs at their blocks, and
  each output at anything (first column tile of a row tile) or at what the point before left (later
  column tiles). The point's case is decided from t % 16; that case's run applies, and each output
  buffer ends at its stores read back, which is what the proof data says the point leaves.
-/
import proofs.«173367_j5145370820692_1_alg».proof.Proof.FrameKI.Data

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- Window 0 is live at every point, so the body leaves its buffer at the proof data's `after`. -/
theorem leaves_0 (c : Dev nD) (t : Fin cfg0.N) :
    (dats m 0 c).leavesExact 0 t = owns (c : Thread nD τ) (ms0 t) fullShare ((dats m 0 c).after 0 t) := by
  unfold Dat.leavesExact; rw [liveAt_0 t]
/-- Window 1 is live at every point, so the body leaves its buffer at the proof data's `after`. -/
theorem leaves_1 (c : Dev nD) (t : Fin cfg0.N) :
    (dats m 0 c).leavesExact 1 t = owns (c : Thread nD τ) (ms1 t) fullShare ((dats m 0 c).after 1 t) := by
  unfold Dat.leavesExact; rw [liveAt_1 t]
/-- Window 2 is live at every point, so the body leaves its buffer at the proof data's `after`. -/
theorem leaves_2 (c : Dev nD) (t : Fin cfg0.N) :
    (dats m 0 c).leavesExact 2 t = owns (c : Thread nD τ) (ms2 t) fullShare ((dats m 0 c).after 2 t) := by
  unfold Dat.leavesExact; rw [liveAt_2 t]
/-- Window 3 is live at every point, so the body leaves its buffer at the proof data's `after`. -/
theorem leaves_3 (c : Dev nD) (t : Fin cfg0.N) :
    (dats m 0 c).leavesExact 3 t = owns (c : Thread nD τ) (ms3 t) fullShare ((dats m 0 c).after 3 t) := by
  unfold Dat.leavesExact; rw [liveAt_3 t]
/-- Window 4 is live at every point, so the body leaves its buffer at the proof data's `after`. -/
theorem leaves_4 (c : Dev nD) (t : Fin cfg0.N) :
    (dats m 0 c).leavesExact 4 t = owns (c : Thread nD τ) (ms4 t) fullShare ((dats m 0 c).after 4 t) := by
  unfold Dat.leavesExact; rw [liveAt_4 t]
/-- Window 5 is live at every point, so the body leaves its buffer at the proof data's `after`. -/
theorem leaves_5 (c : Dev nD) (t : Fin cfg0.N) :
    (dats m 0 c).leavesExact 5 t = owns (c : Thread nD τ) (ms5 t) fullShare ((dats m 0 c).after 5 t) := by
  unfold Dat.leavesExact; rw [liveAt_5 t]
/-- Window 6 is live at every point, so the body leaves its buffer at the proof data's `after`. -/
theorem leaves_6 (c : Dev nD) (t : Fin cfg0.N) :
    (dats m 0 c).leavesExact 6 t = owns (c : Thread nD τ) (ms6 t) fullShare ((dats m 0 c).after 6 t) := by
  unfold Dat.leavesExact; rw [liveAt_6 t]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6,
    after_0, after_1, after_2, after_3, after_4, after_5, after_6]
  have hN : t.val < 32 := lt_of_lt_of_eq t.isLt N_eq
  by_cases h0 : t.val % 16 = 0
  · rw [outsAt_reset m c t h0]
    unfold outReset2 outReset3 outReset4 outReset5 outReset6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((first_iff t).mpr h0) (fun h => (later_iff t).mp h h0) (iblk m c 0 t) (iblk m c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverReset2 c _ _ _ _ _ _ _ _ _ _ _ _ _ _ _ _ _ _ _)
    isplitl [H3]
    · unfold owns; iexists _; isplitr
      swap; · iexact H3
      ipureintro; exact View.read_writes_of_cover _ _ _ _ _ (coverReset3 c _ _ _ _ _ _ _ _ _ _ _ _ _ _ _ _ _ _ _)
    isplitl [H4]
    · unfold owns; iexists _; isplitr
      swap; · iexact H4
      ipureintro; exact View.read_writes_of_cover _ _ _ _ _ (coverReset4 c _ _ _ _ _ _ _ _ _ _ _ _ _ _ _ _ _ _ _)
    isplitl [H5]
    · unfold owns; iexists _; isplitr
      swap; · iexact H5
      ipureintro; exact View.read_writes_of_cover _ _ _ _ _ (coverReset5 c _ _ _ _ _ _ _ _ _ _ _ _ _ _ _ _ _ _ _)
    unfold owns; iexists _; isplitr
    swap; · iexact H6
    ipureintro; exact View.read_writes_of_cover _ _ _ _ _ (coverReset6 c _ _ _ _ _ _ _ _ _ _ _ _ _ _ _ _ _ _ _)
  · rw [outsAt_add m c t h0]
    simp only [before_2_add m c t h0, before_3_add m c t h0, before_4_add m c t h0, before_5_add m c t h0, before_6_add m c t h0]
    unfold outAdd2 outAdd3 outAdd4 outAdd5 outAdd6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAdd c (grid0.coords t) _ _ _ _ _ _ _ _ _ _ _ _ _ _ (fun h => h0 ((first_iff t).mp h)) ((later_iff t).mpr h0) (iblk m c 0 t) (iblk m c 1 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverAdd2 c _ _ _ _ _ _ _ _ _ _ _ _ _ _ _ _ _ _ _ _ _ _ _ _)
    isplitl [H3]
    · unfold owns; iexists _; isplitr
      swap; · iexact H3
      ipureintro; exact View.read_writes_of_cover _ _ _ _ _ (coverAdd3 c _ _ _ _ _ _ _ _ _ _ _ _ _ _ _ _ _ _ _ _ _ _ _ _)
    isplitl [H4]
    · unfold owns; iexists _; isplitr
      swap; · iexact H4
      ipureintro; exact View.read_writes_of_cover _ _ _ _ _ (coverAdd4 c _ _ _ _ _ _ _ _ _ _ _ _ _ _ _ _ _ _ _ _ _ _ _ _)
    isplitl [H5]
    · unfold owns; iexists _; isplitr
      swap; · iexact H5
      ipureintro; exact View.read_writes_of_cover _ _ _ _ _ (coverAdd5 c _ _ _ _ _ _ _ _ _ _ _ _ _ _ _ _ _ _ _ _ _ _ _ _)
    unfold owns; iexists _; isplitr
    swap; · iexact H6
    ipureintro; exact View.read_writes_of_cover _ _ _ _ _ (coverAdd6 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, every array of the pipeline ends at what the library computes
    from the proof data, and every other unscoped buffer at what the host lines after the region make of them. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The frame: the program runs to the end, faults nowhere, and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Stats

end
-- ==== Proof.KValue.Pieces.lean ====
/-
  What each case leaves in each output block, as a value: the one whole-block store's payload. On a first
  column tile that is the block's row statistic (row sums of one input block, or of a product of blocks);
  on a later column tile it is the block's previous contents plus that statistic.
-/
import proofs.«173367_j5145370820692_1_alg».proof.Proof.FrameKI.Data
import Idealize.ShloMosaic.Lib.Pipeline.Value

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl

/-- The reset case leaves output window 2's block at its store's payload. -/
theorem outReset2_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : outReset2 c i a2 h2 a3 h3 a4 h4 a5 h5 a6 h6 a7 h7 a8 h8 hc1 hc2 x0 x1 = k0_pay1 x0 := by
  unfold outReset2
  rw [View.read_writes_eq_canon _ _ _ (coverReset2 c i a2 h2 a3 h3 a4 h4 a5 h5 a6 h6 a7 h7 a8 h8 hc1 hc2 x0 x1)]
  unfold runReset
  dsimp only
  sl_unfold_words
  rw [View.canon_unit_zero hz1]
  simp only [View.readAt_eq_ld, h2.read_unread, h3.read_unread, View.ld_unit_zero (S := S512x1024) hz2]

/-- The add case leaves output window 2's block at its store's payload, over the block's running contents. -/
theorem outAdd2_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : outAdd2 c i a2 h2 a3 h3 a4 h4 a5 h5 a6 h6 a7 h7 a8 h8 hc1 hc2 x0 x1 xo2 xo3 xo4 xo5 xo6 = k0_pay6 x0 xo2 := by
  unfold outAdd2
  rw [View.read_writes_eq_canon _ _ _ (coverAdd2 c i a2 h2 a3 h3 a4 h4 a5 h5 a6 h6 a7 h7 a8 h8 hc1 hc2 x0 x1 xo2 xo3 xo4 xo5 xo6)]
  unfold runAdd
  dsimp only
  sl_unfold_words
  rw [View.canon_unit_zero hz1]
  simp only [View.readAt_eq_ld, h2.read_unread, h3.read_unread, h4.read_unread, View.ld_unit_zero (S := S512x1024) hz2, View.ld_unit_zero (S := S512) hz1]

/-- The reset case leaves output window 3's block at its store's payload. -/
theorem outReset3_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : outReset3 c i a2 h2 a3 h3 a4 h4 a5 h5 a6 h6 a7 h7 a8 h8 hc1 hc2 x0 x1 = k0_pay2 x1 := by
  unfold outReset3
  rw [View.read_writes_eq_canon _ _ _ (coverReset3 c i a2 h2 a3 h3 a4 h4 a5 h5 a6 h6 a7 h7 a8 h8 hc1 hc2 x0 x1)]
  unfold runReset
  dsimp only
  sl_unfold_words
  rw [View.canon_unit_zero hz1]
  simp only [View.readAt_eq_ld, h2.read_unread, h3.read_unread, View.ld_unit_zero (S := S512x1024) hz2]

/-- The add case leaves output window 3's block at its store's payload, over the block's running contents. -/
theorem outAdd3_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : outAdd3 c i a2 h2 a3 h3 a4 h4 a5 h5 a6 h6 a7 h7 a8 h8 hc1 hc2 x0 x1 xo2 xo3 xo4 xo5 xo6 = k0_pay7 x1 xo3 := by
  unfold outAdd3
  rw [View.read_writes_eq_canon _ _ _ (coverAdd3 c i a2 h2 a3 h3 a4 h4 a5 h5 a6 h6 a7 h7 a8 h8 hc1 hc2 x0 x1 xo2 xo3 xo4 xo5 xo6)]
  unfold runAdd
  dsimp only
  sl_unfold_words
  rw [View.canon_unit_zero hz1]
  simp only [View.readAt_eq_ld, h2.read_unread, h3.read_unread, h5.read_unread, View.ld_unit_zero (S := S512x1024) hz2, View.ld_unit_zero (S := S512) hz1]

/-- The reset case leaves output window 4's block at its store's payload. -/
theorem outReset4_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : outReset4 c i a2 h2 a3 h3 a4 h4 a5 h5 a6 h6 a7 h7 a8 h8 hc1 hc2 x0 x1 = k0_pay3 x0 := by
  unfold outReset4
  rw [View.read_writes_eq_canon _ _ _ (coverReset4 c i a2 h2 a3 h3 a4 h4 a5 h5 a6 h6 a7 h7 a8 h8 hc1 hc2 x0 x1)]
  unfold runReset
  dsimp only
  sl_unfold_words
  rw [View.canon_unit_zero hz1]
  simp only [View.readAt_eq_ld, h2.read_unread, h3.read_unread, View.ld_unit_zero (S := S512x1024) hz2]

/-- The add case leaves output window 4's block at its store's payload, over the block's running contents. -/
theorem outAdd4_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : outAdd4 c i a2 h2 a3 h3 a4 h4 a5 h5 a6 h6 a7 h7 a8 h8 hc1 hc2 x0 x1 xo2 xo3 xo4 xo5 xo6 = k0_pay8 x0 xo4 := by
  unfold outAdd4
  rw [View.read_writes_eq_canon _ _ _ (coverAdd4 c i a2 h2 a3 h3 a4 h4 a5 h5 a6 h6 a7 h7 a8 h8 hc1 hc2 x0 x1 xo2 xo3 xo4 xo5 xo6)]
  unfold runAdd
  dsimp only
  sl_unfold_words
  rw [View.canon_unit_zero hz1]
  simp only [View.readAt_eq_ld, h2.read_unread, h3.read_unread, h6.read_unread, View.ld_unit_zero (S := S512x1024) hz2, View.ld_unit_zero (S := S512) hz1]

/-- The reset case leaves output window 5's block at its store's payload. -/
theorem outReset5_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : outReset5 c i a2 h2 a3 h3 a4 h4 a5 h5 a6 h6 a7 h7 a8 h8 hc1 hc2 x0 x1 = k0_pay4 x1 := by
  unfold outReset5
  rw [View.read_writes_eq_canon _ _ _ (coverReset5 c i a2 h2 a3 h3 a4 h4 a5 h5 a6 h6 a7 h7 a8 h8 hc1 hc2 x0 x1)]
  unfold runReset
  dsimp only
  sl_unfold_words
  rw [View.canon_unit_zero hz1]
  simp only [View.readAt_eq_ld, h2.read_unread, h3.read_unread, View.ld_unit_zero (S := S512x1024) hz2]

/-- The add case leaves output window 5's block at its store's payload, over the block's running contents. -/
theorem outAdd5_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : outAdd5 c i a2 h2 a3 h3 a4 h4 a5 h5 a6 h6 a7 h7 a8 h8 hc1 hc2 x0 x1 xo2 xo3 xo4 xo5 xo6 = k0_pay9 x1 xo5 := by
  unfold outAdd5
  rw [View.read_writes_eq_canon _ _ _ (coverAdd5 c i a2 h2 a3 h3 a4 h4 a5 h5 a6 h6 a7 h7 a8 h8 hc1 hc2 x0 x1 xo2 xo3 xo4 xo5 xo6)]
  unfold runAdd
  dsimp only
  sl_unfold_words
  rw [View.canon_unit_zero hz1]
  simp only [View.readAt_eq_ld, h2.read_unread, h3.read_unread, h7.read_unread, View.ld_unit_zero (S := S512x1024) hz2, View.ld_unit_zero (S := S512) hz1]

/-- The reset case leaves output window 6's block at its store's payload. -/
theorem outReset6_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : k0_cond1 i = 1#1) (hc2 : ¬ k0_cond2 i = 1#1) (x0 : Vec F S512x1024 .f32) (x1 : Vec F S512x1024 .f32) : outReset6 c i a2 h2 a3 h3 a4 h4 a5 h5 a6 h6 a7 h7 a8 h8 hc1 hc2 x0 x1 = k0_pay5 x0 x1 := by
  unfold outReset6
  rw [View.read_writes_eq_canon _ _ _ (coverReset6 c i a2 h2 a3 h3 a4 h4 a5 h5 a6 h6 a7 h7 a8 h8 hc1 hc2 x0 x1)]
  unfold runReset
  dsimp only
  sl_unfold_words
  rw [View.canon_unit_zero hz1]
  simp only [View.readAt_eq_ld, h2.read_unread, h3.read_unread, View.ld_unit_zero (S := S512x1024) hz2]

/-- The add case leaves output window 6's block at its store's payload, over the block's running contents. -/
theorem outAdd6_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (a5 : Memref sig .tc .vmem S512 .f32) (h5 : a5.IsWhole) (a6 : Memref sig .tc .vmem S512 .f32) (h6 : a6.IsWhole) (a7 : Memref sig .tc .vmem S512 .f32) (h7 : a7.IsWhole) (a8 : Memref sig .tc .vmem S512 .f32) (h8 : a8.IsWhole) (hc1 : ¬ k0_cond1 i = 1#1) (hc2 : k0_cond2 i = 1#1) (x0 : Vec F S512x1024 .f32) (x1 : Vec F S512x1024 .f32) (xo2 : Vec F S512 .f32) (xo3 : Vec F S512 .f32) (xo4 : Vec F S512 .f32) (xo5 : Vec F S512 .f32) (xo6 : Vec F S512 .f32) : outAdd6 c i a2 h2 a3 h3 a4 h4 a5 h5 a6 h6 a7 h7 a8 h8 hc1 hc2 x0 x1 xo2 xo3 xo4 xo5 xo6 = k0_pay10 x0 x1 xo6 := by
  unfold outAdd6
  rw [View.read_writes_eq_canon _ _ _ (coverAdd6 c i a2 h2 a3 h3 a4 h4 a5 h5 a6 h6 a7 h7 a8 h8 hc1 hc2 x0 x1 xo2 xo3 xo4 xo5 xo6)]
  unfold runAdd
  dsimp only
  sl_unfold_words
  rw [View.canon_unit_zero hz1]
  simp only [View.readAt_eq_ld, h2.read_unread, h3.read_unread, h8.read_unread, View.ld_unit_zero (S := S512x1024) hz2, View.ld_unit_zero (S := S512) hz1]

end Cert.KernelIdeal.Stats

end
-- ==== Proof.Spec.lean ====
/-
  Pearson loss over 1024 rows of 16384 columns, in the two arrangements the two programs compute.

  For a row r of real arrays X, Y write  S_X = Σ_k X(r,k)  and  D_XY = Σ_k X(r,k)·Y(r,k).
  The reference centres first:      C_XY(r) = Σ_k (X(r,k) − S_X/16384)·(Y(r,k) − S_Y/16384).
  The kernel uses the moment form:  M_XY(r) = D_XY − (S_X/16384)·S_Y.
  Over the reals the two agree. Both programs then apply ONE function to the three row vectors
  (sp, st, num) = (·_XX, ·_YY, ·_XY): variances sp/16383 and st/16383, the denominator sqrt(sp·st),
  the guarded quotient num / (denominator if positive else 1), the validity mask, 1 − corr where
  valid and 1 elsewhere, and the mean over the 1024 rows. That function is `tail` below.
-/
import Idealize.ShloMosaic.PureOps.Ideal
import Idealize.ShloMosaic.Lib.ValueIdx

noncomputable section

namespace Cert.Pearson

open Idealize.ShloMosaic Idealize.ShloMosaic.ValueIdx

/-- The inputs' shape, a row vector's shape, and the scalar shape. -/
abbrev SIn : Shape := ⟨2, ![1024, 16384]⟩
abbrev SRow : Shape := ⟨1, ![1024]⟩
abbrev SSc : Shape := ⟨0, ![]⟩

/-- The sum of row `r`. -/
def rsum (X : SIn.Idx → ℝ) (r : Fin 1024) : ℝ := ∑ k : Fin 16384, X (ix2 r k)

/-- The dot product of row `r` of two arrays. -/
def rdot (X Y : SIn.Idx → ℝ) (r : Fin 1024) : ℝ := ∑ k : Fin 16384, X (ix2 r k) * Y (ix2 r k)

/-- The centred cross sum of row `r`: each entry less its row's mean, multiplied and summed. -/
def centred (X Y : SIn.Idx → ℝ) (r : Fin 1024) : ℝ :=
  ∑ k : Fin 16384, (X (ix2 r k) - rsum X r / 16384) * (Y (ix2 r k) - rsum Y r / 16384)

/-- The moment form of the same quantity: the dot product less mean times sum. -/
def moment (X Y : SIn.Idx → ℝ) (r : Fin 1024) : ℝ := rdot X Y r - rsum X r / 16384 * rsum Y r

/-- A real row vector read as a vector of extended reals. -/
def rowVec (f : Fin 1024 → ℝ) : FVec Ideal SRow .f32 := fun i => ((f (i 0) : ℝ) : EReal)

/-- A scalar constant broadcast along the rows. -/
def rowConst (hb : SSc.BroadcastsInDim SRow (![] : Fin 0 → Fin SRow.rank)) (w : BitVec 32) : FVec Ideal SRow .f32 :=
  broadcastInDim SRow ![] hb (constant (F := Ideal) SSc .f32 w)

/-- What both programs compute from the three row statistics. -/
def tail (hb : SSc.BroadcastsInDim SRow (![] : Fin 0 → Fin SRow.rank)) (hr : SRow.ReducesTo [0] SSc) (hs : 0 < SSc.numel)
    (sp st num : FVec Ideal SRow .f32) : FVec Ideal SSc .f32 :=
  let varp : FVec Ideal SRow .f32 := Host.divf sp (rowConst hb 0x467FFC00#32)
  let vart : FVec Ideal SRow .f32 := Host.divf st (rowConst hb 0x467FFC00#32)
  let den : FVec Ideal SRow .f32 := Host.sqrt (mulf sp st)
  let one : FVec Ideal SRow .f32 := broadcastInDim SRow ![] hb (id (constant (F := Ideal) SSc .f32 0x3F800000#32))
  let safe : FVec Ideal SRow .f32 := select (cmpf .ogt den (rowConst hb 0x00000000#32)) den one
  let corr : FVec Ideal SRow .f32 := Host.divf num safe
  let valid : IVec SRow 1 :=
    andi (andi (andi (cmpf .ogt varp (rowConst hb 0x3727C5AC#32)) (cmpf .ogt vart (rowConst hb 0x3727C5AC#32)))
      (cmpf .ogt den (rowConst hb 0x00000000#32))) (noti (cmpf .une corr corr))
  let per : FVec Ideal SRow .f32 := select valid (subf (rowConst hb 0x3F800000#32) corr) one
  Host.divf (Host.reduceAdd per (constant (F := Ideal) SSc .f32 0x00000000#32) hr hs) (constant (F := Ideal) SSc .f32 0x44800000#32)

/-- The kernel's statistic from a row of dot products `D` and two rows of sums `A`, `B`: `D − (A/16384)·B`. -/
def kstat (hb : SSc.BroadcastsInDim SRow (![] : Fin 0 → Fin SRow.rank)) (D A B : FVec Ideal SRow .f32) : FVec Ideal SRow .f32 :=
  subf D (mulf (Host.divf A (rowConst hb 0x46800000#32)) B)

/-- The reference's three row statistics and the kernel's, as extended-real row vectors of real arrays. -/
def refStats (X Y : SIn.Idx → ℝ) : FVec Ideal SRow .f32 × FVec Ideal SRow .f32 × FVec Ideal SRow .f32 :=
  (rowVec (centred X X), rowVec (centred Y Y), rowVec (centred X Y))
def kerStats (X Y : SIn.Idx → ℝ) : FVec Ideal SRow .f32 × FVec Ideal SRow .f32 × FVec Ideal SRow .f32 :=
  (rowVec (moment X X), rowVec (moment Y Y), rowVec (moment X Y))

end Cert.Pearson

end
-- ==== Proof.Algebra.lean ====
/-
  The two arrangements of the row statistics agree over the reals, and the small facts about sums
  that carry the agreement to the extended reals.
-/
import proofs.«173367_j5145370820692_1_alg».proof.Proof.Spec
import Mathlib.Algebra.BigOperators.Fin
import Mathlib.Data.Real.Basic
import Mathlib.Data.EReal.Basic

noncomputable section

namespace Cert.Pearson

open Idealize.ShloMosaic Idealize.ShloMosaic.ValueIdx

/-- Σ_k (x_k − S_X/n)(y_k − S_Y/n) = Σ_k x_k y_k − (S_X/n)·S_Y with n = 16384 the number of terms. -/
theorem centred_eq_moment (X Y : SIn.Idx → ℝ) (r : Fin 1024) : centred X Y r = moment X Y r := by
  -- Each term expands to x_k y_k − (S_Y/n) x_k − (S_X/n) y_k + (S_X/n)(S_Y/n).
  have e : ∀ k : Fin 16384, (X (ix2 r k) - rsum X r / 16384) * (Y (ix2 r k) - rsum Y r / 16384)
      = X (ix2 r k) * Y (ix2 r k) - rsum Y r / 16384 * X (ix2 r k) - rsum X r / 16384 * Y (ix2 r k)
        + rsum X r / 16384 * (rsum Y r / 16384) := fun k => by ring
  have hX : ∑ k : Fin 16384, X (ix2 r k) = rsum X r := rfl
  have hY : ∑ k : Fin 16384, Y (ix2 r k) = rsum Y r := rfl
  unfold centred moment rdot
  simp only [e]
  -- Summed: D − (S_Y/n) S_X − (S_X/n) S_Y + n (S_X/n)(S_Y/n), and the last three terms leave −(S_X/n) S_Y.
  rw [Finset.sum_add_distrib, Finset.sum_sub_distrib, Finset.sum_sub_distrib, ← Finset.mul_sum, ← Finset.mul_sum,
    Finset.sum_const, Finset.card_univ, Fintype.card_fin, hX, hY, nsmul_eq_mul]
  push_cast
  ring

/-- A sum over the 16384 columns is the sum over the 16 column tiles of the sums over each tile's 1024 columns. -/
theorem sum_tiles (f : Fin 16384 → ℝ) :
    ∑ k : Fin 16384, f k = ∑ j : Fin 16, ∑ q : Fin 1024, f ⟨j.val * 1024 + q.val, by omega⟩ := by
  -- Re-index along the bijection (j, q) ↦ q + 1024·j of pairs with columns, then sum the pairs coordinate by coordinate.
  calc ∑ k : Fin 16384, f k
      = ∑ p : Fin 16 × Fin 1024, f (finProdFinEquiv p) :=
        (Equiv.sum_comp (finProdFinEquiv (m := 16) (n := 1024)) f).symm
    _ = ∑ j : Fin 16, ∑ q : Fin 1024, f (finProdFinEquiv (j, q)) := Fintype.sum_prod_type _
    _ = _ := by
        refine Finset.sum_congr rfl fun j _ => Finset.sum_congr rfl fun q _ => congrArg f (Fin.ext ?_)
        show (q.val + 1024 * j.val) = j.val * 1024 + q.val
        omega

/-- The embedding of the reals in the extended reals commutes with finite sums. -/
theorem coe_sum {ι : Type} (s : Finset ι) (f : ι → ℝ) : ((∑ i ∈ s, f i : ℝ) : EReal) = ∑ i ∈ s, ((f i : ℝ) : EReal) := by
  classical
  -- By induction on the index set: the embedding sends 0 to 0 and a sum of two reals to the sum of their images.
  induction s using Finset.induction_on with
  | empty => simp
  | insert a s ha ih => rw [Finset.sum_insert ha, Finset.sum_insert ha, EReal.coe_add, ih]

/-- The word `0x46800000` denotes the real 16384 = 2¹⁴. -/
theorem word_16384 : Ideal.ofBits .f32 0x46800000#32 = ((16384 : ℝ) : EReal) := by
  simp [Ideal.ofBits, Ideal.ieee, -EReal.coe_mul]; norm_num

/-- The kernel's statistic of real rows is the moment form. -/
theorem kstat_rowVec (hb : SSc.BroadcastsInDim SRow (![] : Fin 0 → Fin SRow.rank)) (X Y : SIn.Idx → ℝ) :
    kstat hb (rowVec (rdot X Y)) (rowVec (rsum X)) (rowVec (rsum Y)) = rowVec (moment X Y) := by
  funext i
  obtain ⟨r, rfl⟩ : ∃ r, i = ix1 r := ⟨_, eq_ix1 i⟩
  -- At row r the statistic reads D(r) − (S_X(r) / 16384) · S_Y(r), every operand the image of a real.
  simp only [kstat, rowVec, rowConst, subf, mulf, Host.divf, broadcastInDim, constant, Ideal.subf_def, Ideal.mulf_def,
    Ideal.hostDivf_def, Ideal.ofBits_def, word_16384]
  show ((rdot X Y r : ℝ) : EReal) - Ideal.div ((rsum X r : ℝ) : EReal) ((16384 : ℝ) : EReal) * ((rsum Y r : ℝ) : EReal)
    = ((moment X Y r : ℝ) : EReal)
  -- The divisor is a nonzero real, so the quotient is the product with 1/16384; products and differences of
  -- reals embed, and what is left is an identity of real numbers.
  rw [Ideal.div_coe (by norm_num : (16384 : ℝ) ≠ 0), ← EReal.coe_mul, ← EReal.coe_mul, ← EReal.coe_sub,
    EReal.coe_eq_coe_iff]
  unfold moment
  ring

end Cert.Pearson

end
-- ==== Proof.KValue.Acc.lean ====
/-
  The running contents of an output block, in closed form. For a per-entry real function φ of the input
  index (an input itself, or a product of entries), array row R and column tile j, `tileSum φ R j` is the
  sum of φ over the 1024 columns of tile j of row R. After grid position n (row tile n / 16, column tile
  n % 16) row r of the output block holds the sum of the tile sums of tiles 0 … n % 16 of array row
  (n / 16)·512 + r.
-/
import proofs.«173367_j5145370820692_1_alg».proof.Proof.KValue.Pieces
import proofs.«173367_j5145370820692_1_alg».proof.Proof.Spec
import proofs.«173367_j5145370820692_1_alg».proof.Proof.Algebra
import Idealize.ShloMosaic.PureOps.Ideal.Laws
import Idealize.ShloMosaic.Lib.ValueIdx

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Pearson Idealize.ShloMosaic.ValueIdx

variable (m : (ℓ : Loc nD τ sig) → Buf (Elt Ideal) ℓ)

/-- The sum of `φ` over column tile `j` of array row `R` (zero beyond the sixteen tiles). -/
def tileSum (φ : SIn.Idx → ℝ) (R : Fin 1024) (j : ℕ) : ℝ :=
  if h : j < 16 then ∑ q : Fin 1024, φ (ix2 R ⟨j * 1024 + q.val, by omega⟩) else 0

/-- The array row that row `r` of the output block belongs to at grid position `n`. -/
def rowOf (n : ℕ) (hn : n < 32) (r : Fin 512) : Fin 1024 := ⟨n / 16 * 512 + r.val, by omega⟩

/-- The running contents of an output block after grid position `n`. -/
def acc (φ : SIn.Idx → ℝ) (n : ℕ) (hn : n < cfg0.N) : Vec Ideal S512 .f32 :=
  fun i => ((∑ j ∈ Finset.range (n % 16 + 1), tileSum φ (rowOf n (lt_of_lt_of_eq hn N_eq) (i 0)) j : ℝ) : EReal)

/-! ## The payloads at a row -/

/-- Row `i`'s sum over the 1024 columns of a block of extended reals. -/
def tileE (B : S512x1024.Idx → EReal) : S512.Idx → EReal := fun i => ∑ q : Fin 1024, B (ix2 (i 0) q)

/-- The reduced index with the column inserted is (row, column). -/
theorem lift_eq (r : Fin 512) (q : Fin 1024) :
    (reduces_S512x1024_S512 : S512x1024.Reduces [1] S512).lift (ix1 r) q = ix2 r q :=
  funext fun a => Fin.ext (by match a with | ⟨0, _⟩ => rfl | ⟨1, _⟩ => rfl)

/-- A lane sum of a block, at the extended reals, is the row-tile sum. -/
theorem rowsum_eq (B : S512x1024.Idx → EReal) :
    (multiReduction (F := Ideal) .add [1] S512 (φ := .f32) B 0x00000000#32 reduces_S512x1024_S512 (.inl rfl) rfl : S512.Idx → EReal) = tileE B := by
  funext i
  obtain ⟨r, rfl⟩ : ∃ r : Fin 512, i = ix1 r := ⟨i 0, eq_ix1 i⟩
  refine (Ideal.multiReduction_add_single (φ := .f32) B _ reduces_S512x1024_S512 _ _ (ix1 r)).trans ?_
  exact Finset.sum_congr rfl fun q _ => congrArg B (lift_eq r q)

theorem pay1_eq (x0 : S512x1024.Idx → EReal) : (k0_pay1 (F := Ideal) x0 : S512.Idx → EReal) = tileE x0 := rowsum_eq x0
theorem pay2_eq (x1 : S512x1024.Idx → EReal) : (k0_pay2 (F := Ideal) x1 : S512.Idx → EReal) = tileE x1 := rowsum_eq x1
theorem pay3_eq (x0 : S512x1024.Idx → EReal) : (k0_pay3 (F := Ideal) x0 : S512.Idx → EReal) = tileE (fun j => x0 j * x0 j) := rowsum_eq _
theorem pay4_eq (x1 : S512x1024.Idx → EReal) : (k0_pay4 (F := Ideal) x1 : S512.Idx → EReal) = tileE (fun j => x1 j * x1 j) := rowsum_eq _
theorem pay5_eq (x0 x1 : S512x1024.Idx → EReal) : (k0_pay5 (F := Ideal) x0 x1 : S512.Idx → EReal) = tileE (fun j => x0 j * x1 j) := rowsum_eq _

/-- The add case's payloads: the running contents plus the block's statistic. -/
theorem pay6_eq (x0 : S512x1024.Idx → EReal) (xo : S512.Idx → EReal) : (k0_pay6 (F := Ideal) x0 xo : S512.Idx → EReal) = fun i => xo i + tileE x0 i := by
  funext i; unfold k0_pay6; show FloatOps.addf (shapeCast S512 xo shapeCasts_S512_S512 i) (k0_pay1 (F := Ideal) x0 i) = _
  rw [shapeCast_self, pay1_eq]; rfl
theorem pay7_eq (x1 : S512x1024.Idx → EReal) (xo : S512.Idx → EReal) : (k0_pay7 (F := Ideal) x1 xo : S512.Idx → EReal) = fun i => xo i + tileE x1 i := by
  funext i; unfold k0_pay7; show FloatOps.addf (shapeCast S512 xo shapeCasts_S512_S512 i) (k0_pay2 (F := Ideal) x1 i) = _
  rw [shapeCast_self, pay2_eq]; rfl
theorem pay8_eq (x0 : S512x1024.Idx → EReal) (xo : S512.Idx → EReal) : (k0_pay8 (F := Ideal) x0 xo : S512.Idx → EReal) = fun i => xo i + tileE (fun j => x0 j * x0 j) i := by
  funext i; unfold k0_pay8; show FloatOps.addf (shapeCast S512 xo shapeCasts_S512_S512 i) (k0_pay3 (F := Ideal) x0 i) = _
  rw [shapeCast_self, pay3_eq]; rfl
theorem pay9_eq (x1 : S512x1024.Idx → EReal) (xo : S512.Idx → EReal) : (k0_pay9 (F := Ideal) x1 xo : S512.Idx → EReal) = fun i => xo i + tileE (fun j => x1 j * x1 j) i := by
  funext i; unfold k0_pay9; show FloatOps.addf (shapeCast S512 xo shapeCasts_S512_S512 i) (k0_pay4 (F := Ideal) x1 i) = _
  rw [shapeCast_self, pay4_eq]; rfl
theorem pay10_eq (x0 x1 : S512x1024.Idx → EReal) (xo : S512.Idx → EReal) : (k0_pay10 (F := Ideal) x0 x1 xo : S512.Idx → EReal) = fun i => xo i + tileE (fun j => x0 j * x1 j) i := by
  funext i; unfold k0_pay10; show FloatOps.addf (shapeCast S512 xo shapeCasts_S512_S512 i) (k0_pay5 (F := Ideal) x0 x1 i) = _
  rw [shapeCast_self, pay5_eq]; rfl

/-! ## The input blocks' entries -/

/-- The two input blocks at point `t`, at their literal type. -/
abbrev xb (c : Dev nD) (t : Fin cfg0.N) : S512x1024.Idx → EReal := iblk m c 0 t
abbrev yb (c : Dev nD) (t : Fin cfg0.N) : S512x1024.Idx → EReal := iblk m c 1 t

/-- Both inputs' block indices at point `t`: row tile t / 16, column tile t % 16. -/
theorem idx_in : ∀ t : Fin cfg0.N, win0_0.index t (0 : Fin 2) = t.val / 16 ∧ win0_0.index t (1 : Fin 2) = t.val % 16
    ∧ win0_1.index t (0 : Fin 2) = t.val / 16 ∧ win0_1.index t (1 : Fin 2) = t.val % 16 :=
  (by decide +kernel : ∀ t : Fin grid0.N, _)

/-- Entry (r, q) of the first input's block at point `t` is the array's entry at row (t/16)·512 + r, column (t%16)·1024 + q. -/
theorem entry0 (c : Dev nD) (t : Fin cfg0.N) (r : Fin 512) (q : Fin 1024) :
    xb m c t (ix2 r q)
      = (V m c main_arg0 : SIn.Idx → EReal) (ix2 (rowOf t.val (lt_of_lt_of_eq t.isLt N_eq) r) ⟨t.val % 16 * 1024 + q.val, by omega⟩) := by
  show (V m c main_arg0 : SIn.Idx → EReal) (((cfg0.win 0).blk t).view.emb (ix2 r q)) = _
  refine congrArg (V m c main_arg0 : SIn.Idx → EReal) (funext fun a => Fin.ext ?_)
  obtain ⟨e0, e1, -, -⟩ := idx_in t
  match a with
  | ⟨0, _⟩ => show win0_0.index t (0 : Fin 2) * 512 + 1 * r.val = t.val / 16 * 512 + r.val; omega
  | ⟨1, _⟩ => show win0_0.index t (1 : Fin 2) * 1024 + 1 * q.val = t.val % 16 * 1024 + q.val; omega

/-- The same for the second input. -/
theorem entry1 (c : Dev nD) (t : Fin cfg0.N) (r : Fin 512) (q : Fin 1024) :
    yb m c t (ix2 r q)
      = (V m c main_arg1 : SIn.Idx → EReal) (ix2 (rowOf t.val (lt_of_lt_of_eq t.isLt N_eq) r) ⟨t.val % 16 * 1024 + q.val, by omega⟩) := by
  show (V m c main_arg1 : SIn.Idx → EReal) (((cfg0.win 1).blk t).view.emb (ix2 r q)) = _
  refine congrArg (V m c main_arg1 : SIn.Idx → EReal) (funext fun a => Fin.ext ?_)
  obtain ⟨-, -, e0, e1⟩ := idx_in t
  match a with
  | ⟨0, _⟩ => show win0_1.index t (0 : Fin 2) * 512 + 1 * r.val = t.val / 16 * 512 + r.val; omega
  | ⟨1, _⟩ => show win0_1.index t (1 : Fin 2) * 1024 + 1 * q.val = t.val % 16 * 1024 + q.val; omega

/-! ## Tile sums of real entries, and the two steps of the running sum -/

/-- A block whose entries are the reals φ at the point's offsets has the real tile sums as its row-tile sums. -/
theorem tileE_real (B : S512x1024.Idx → EReal) (φ : SIn.Idx → ℝ) (n : ℕ) (hn : n < 32)
    (hB : ∀ (r : Fin 512) (q : Fin 1024), B (ix2 r q) = ((φ (ix2 (rowOf n hn r) ⟨n % 16 * 1024 + q.val, by omega⟩) : ℝ) : EReal)) (r : Fin 512) :
    tileE B (ix1 r) = ((tileSum φ (rowOf n hn r) (n % 16) : ℝ) : EReal) := by
  unfold tileE tileSum
  rw [dif_pos (Nat.mod_lt _ (by norm_num)), coe_sum]
  exact Finset.sum_congr rfl fun q _ => hB r q

/-- On a first column tile the running contents are the first tile sum. -/
theorem acc_first (φ : SIn.Idx → ℝ) (n : ℕ) (hn : n < cfg0.N) (h0 : n % 16 = 0) (r : Fin 512) :
    acc φ n hn (ix1 r) = ((tileSum φ (rowOf n (lt_of_lt_of_eq hn N_eq) r) (n % 16) : ℝ) : EReal) := by
  unfold acc
  rw [h0, Finset.sum_range_one]

/-- On a later column tile they are the previous position's plus this tile's sum. -/
theorem acc_later (φ : SIn.Idx → ℝ) (n : ℕ) (hn : n + 1 < cfg0.N) (h0 : ¬ (n + 1) % 16 = 0) (r : Fin 512) :
    acc φ (n + 1) hn (ix1 r) = acc φ n (Nat.lt_of_succ_lt hn) (ix1 r)
      + ((tileSum φ (rowOf (n + 1) (lt_of_lt_of_eq hn N_eq) r) ((n + 1) % 16) : ℝ) : EReal) := by
  have e1 : (n + 1) % 16 = n % 16 + 1 := by omega
  have e2 : rowOf (n + 1) (lt_of_lt_of_eq hn N_eq) r = rowOf n (lt_of_lt_of_eq (Nat.lt_of_succ_lt hn) N_eq) r :=
    Fin.ext (by unfold rowOf; show (n + 1) / 16 * 512 + r.val = n / 16 * 512 + r.val; omega)
  unfold acc
  show ((∑ j ∈ Finset.range ((n + 1) % 16 + 1), tileSum φ (rowOf (n + 1) _ r) j : ℝ) : EReal) = ((∑ j ∈ Finset.range (n % 16 + 1), tileSum φ (rowOf n _ r) j : ℝ) : EReal) + _
  rw [e1, Finset.sum_range_succ, EReal.coe_add, e2]

/-! ## The invariant -/

set_option maxHeartbeats 1600000 in
/-- THE INVARIANT. Of real inputs `X`, `Y` the five output blocks after every grid position are the running
    contents of X, Y, X·X, Y·Y and X·Y: by induction on the position, the reset case on a first column tile,
    the add case over the induction hypothesis elsewhere. -/
theorem outsAt_eq (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal)) :
    ∀ (n : ℕ) (hn : n < cfg0.N), outsAt m c n hn =
      (acc X n hn, acc Y n hn, acc (fun i => X i * X i) n hn, acc (fun i => Y i * Y i) n hn, acc (fun i => X i * Y i) n hn) := by
  intro n
  induction n with
  | zero =>
    intro hn
    have hn32 : 0 < 32 := by norm_num
    have h0 : 0 % 16 = 0 := rfl
    have hc1 : k0_cond1 (grid0.coords (⟨0, hn⟩ : Fin cfg0.N)) = 1#1 := (first_iff ⟨0, hn⟩).mpr h0
    have hc2 : ¬ k0_cond2 (grid0.coords (⟨0, hn⟩ : Fin cfg0.N)) = 1#1 := fun h => (later_iff ⟨0, hn⟩).mp h h0
    refine (outsAt_reset m c ⟨0, hn⟩ h0).trans ?_
    exact (congrArg₂ Prod.mk ((outReset2_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) hc1 hc2 (xb m c ⟨0, hn⟩) (yb m c ⟨0, hn⟩)).trans ((pay1_eq (xb m c ⟨0, hn⟩)).trans (funext fun i => by
        obtain ⟨r, rfl⟩ : ∃ r : Fin 512, i = ix1 r := ⟨i 0, eq_ix1 i⟩
        exact (tileE_real (xb m c ⟨0, hn⟩) X 0 hn32 (fun r q => ((entry0 m c ⟨0, hn⟩ r q).trans (congrFun hx _))) r).trans (acc_first X 0 hn h0 r).symm)))
      (congrArg₂ Prod.mk ((outReset3_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) hc1 hc2 (xb m c ⟨0, hn⟩) (yb m c ⟨0, hn⟩)).trans ((pay2_eq (yb m c ⟨0, hn⟩)).trans (funext fun i => by
        obtain ⟨r, rfl⟩ : ∃ r : Fin 512, i = ix1 r := ⟨i 0, eq_ix1 i⟩
        exact (tileE_real (yb m c ⟨0, hn⟩) Y 0 hn32 (fun r q => ((entry1 m c ⟨0, hn⟩ r q).trans (congrFun hy _))) r).trans (acc_first Y 0 hn h0 r).symm)))
      (congrArg₂ Prod.mk ((outReset4_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) hc1 hc2 (xb m c ⟨0, hn⟩) (yb m c ⟨0, hn⟩)).trans ((pay3_eq (xb m c ⟨0, hn⟩)).trans (funext fun i => by
        obtain ⟨r, rfl⟩ : ∃ r : Fin 512, i = ix1 r := ⟨i 0, eq_ix1 i⟩
        exact (tileE_real (fun j => xb m c ⟨0, hn⟩ j * xb m c ⟨0, hn⟩ j) (fun i => X i * X i) 0 hn32 (fun r q => (congrArg₂ (· * ·) ((entry0 m c ⟨0, hn⟩ r q).trans (congrFun hx _)) ((entry0 m c ⟨0, hn⟩ r q).trans (congrFun hx _))).trans (EReal.coe_mul _ _).symm) r).trans (acc_first (fun i => X i * X i) 0 hn h0 r).symm)))
      (congrArg₂ Prod.mk ((outReset5_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) hc1 hc2 (xb m c ⟨0, hn⟩) (yb m c ⟨0, hn⟩)).trans ((pay4_eq (yb m c ⟨0, hn⟩)).trans (funext fun i => by
        obtain ⟨r, rfl⟩ : ∃ r : Fin 512, i = ix1 r := ⟨i 0, eq_ix1 i⟩
        exact (tileE_real (fun j => yb m c ⟨0, hn⟩ j * yb m c ⟨0, hn⟩ j) (fun i => Y i * Y i) 0 hn32 (fun r q => (congrArg₂ (· * ·) ((entry1 m c ⟨0, hn⟩ r q).trans (congrFun hy _)) ((entry1 m c ⟨0, hn⟩ r q).trans (congrFun hy _))).trans (EReal.coe_mul _ _).symm) r).trans (acc_first (fun i => Y i * Y i) 0 hn h0 r).symm)))
      ((outReset6_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) hc1 hc2 (xb m c ⟨0, hn⟩) (yb m c ⟨0, hn⟩)).trans ((pay5_eq (xb m c ⟨0, hn⟩) (yb m c ⟨0, hn⟩)).trans (funext fun i => by
        obtain ⟨r, rfl⟩ : ∃ r : Fin 512, i = ix1 r := ⟨i 0, eq_ix1 i⟩
        exact (tileE_real (fun j => xb m c ⟨0, hn⟩ j * yb m c ⟨0, hn⟩ j) (fun i => X i * Y i) 0 hn32 (fun r q => (congrArg₂ (· * ·) ((entry0 m c ⟨0, hn⟩ r q).trans (congrFun hx _)) ((entry1 m c ⟨0, hn⟩ r q).trans (congrFun hy _))).trans (EReal.coe_mul _ _).symm) r).trans (acc_first (fun i => X i * Y i) 0 hn h0 r).symm)))))))
  | succ n ih0 =>
    intro hn
    have hn32 : n + 1 < 32 := lt_of_lt_of_eq hn N_eq
    have ih := ih0 (Nat.lt_of_succ_lt hn)
    by_cases h0 : (n + 1) % 16 = 0
    · have hc1 : k0_cond1 (grid0.coords (⟨n + 1, hn⟩ : Fin cfg0.N)) = 1#1 := (first_iff ⟨n + 1, hn⟩).mpr h0
      have hc2 : ¬ k0_cond2 (grid0.coords (⟨n + 1, hn⟩ : Fin cfg0.N)) = 1#1 := fun h => (later_iff ⟨n + 1, hn⟩).mp h h0
      refine (outsAt_reset m c ⟨n + 1, hn⟩ h0).trans ?_
      exact (congrArg₂ Prod.mk ((outReset2_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩)).trans ((pay1_eq (xb m c ⟨n + 1, hn⟩)).trans (funext fun i => by
        obtain ⟨r, rfl⟩ : ∃ r : Fin 512, i = ix1 r := ⟨i 0, eq_ix1 i⟩
        exact (tileE_real (xb m c ⟨n + 1, hn⟩) X (n + 1) hn32 (fun r q => ((entry0 m c ⟨n + 1, hn⟩ r q).trans (congrFun hx _))) r).trans (acc_first X (n + 1) hn h0 r).symm)))
      (congrArg₂ Prod.mk ((outReset3_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩)).trans ((pay2_eq (yb m c ⟨n + 1, hn⟩)).trans (funext fun i => by
        obtain ⟨r, rfl⟩ : ∃ r : Fin 512, i = ix1 r := ⟨i 0, eq_ix1 i⟩
        exact (tileE_real (yb m c ⟨n + 1, hn⟩) Y (n + 1) hn32 (fun r q => ((entry1 m c ⟨n + 1, hn⟩ r q).trans (congrFun hy _))) r).trans (acc_first Y (n + 1) hn h0 r).symm)))
      (congrArg₂ Prod.mk ((outReset4_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩)).trans ((pay3_eq (xb m c ⟨n + 1, hn⟩)).trans (funext fun i => by
        obtain ⟨r, rfl⟩ : ∃ r : Fin 512, i = ix1 r := ⟨i 0, eq_ix1 i⟩
        exact (tileE_real (fun j => xb m c ⟨n + 1, hn⟩ j * xb m c ⟨n + 1, hn⟩ j) (fun i => X i * X i) (n + 1) hn32 (fun r q => (congrArg₂ (· * ·) ((entry0 m c ⟨n + 1, hn⟩ r q).trans (congrFun hx _)) ((entry0 m c ⟨n + 1, hn⟩ r q).trans (congrFun hx _))).trans (EReal.coe_mul _ _).symm) r).trans (acc_first (fun i => X i * X i) (n + 1) hn h0 r).symm)))
      (congrArg₂ Prod.mk ((outReset5_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩)).trans ((pay4_eq (yb m c ⟨n + 1, hn⟩)).trans (funext fun i => by
        obtain ⟨r, rfl⟩ : ∃ r : Fin 512, i = ix1 r := ⟨i 0, eq_ix1 i⟩
        exact (tileE_real (fun j => yb m c ⟨n + 1, hn⟩ j * yb m c ⟨n + 1, hn⟩ j) (fun i => Y i * Y i) (n + 1) hn32 (fun r q => (congrArg₂ (· * ·) ((entry1 m c ⟨n + 1, hn⟩ r q).trans (congrFun hy _)) ((entry1 m c ⟨n + 1, hn⟩ r q).trans (congrFun hy _))).trans (EReal.coe_mul _ _).symm) r).trans (acc_first (fun i => Y i * Y i) (n + 1) hn h0 r).symm)))
      ((outReset6_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩)).trans ((pay5_eq (xb m c ⟨n + 1, hn⟩) (yb m c ⟨n + 1, hn⟩)).trans (funext fun i => by
        obtain ⟨r, rfl⟩ : ∃ r : Fin 512, i = ix1 r := ⟨i 0, eq_ix1 i⟩
        exact (tileE_real (fun j => xb m c ⟨n + 1, hn⟩ j * yb m c ⟨n + 1, hn⟩ j) (fun i => X i * Y i) (n + 1) hn32 (fun r q => (congrArg₂ (· * ·) ((entry0 m c ⟨n + 1, hn⟩ r q).trans (congrFun hx _)) ((entry1 m c ⟨n + 1, hn⟩ r q).trans (congrFun hy _))).trans (EReal.coe_mul _ _).symm) r).trans (acc_first (fun i => X i * Y i) (n + 1) hn h0 r).symm)))))))
    · have hc1 : ¬ k0_cond1 (grid0.coords (⟨n + 1, hn⟩ : Fin cfg0.N)) = 1#1 := fun h => h0 ((first_iff ⟨n + 1, hn⟩).mp h)
      have hc2 : k0_cond2 (grid0.coords (⟨n + 1, hn⟩ : Fin cfg0.N)) = 1#1 := (later_iff ⟨n + 1, hn⟩).mpr h0
      refine (outsAt_add m c ⟨n + 1, hn⟩ h0).trans ?_
      exact (congrArg₂ Prod.mk ((outAdd2_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩) (outsAt m c n (Nat.lt_of_succ_lt hn)).1 (outsAt m c n (Nat.lt_of_succ_lt hn)).2.1 (outsAt m c n (Nat.lt_of_succ_lt hn)).2.2.1 (outsAt m c n (Nat.lt_of_succ_lt hn)).2.2.2.1 (outsAt m c n (Nat.lt_of_succ_lt hn)).2.2.2.2).trans ((pay6_eq (xb m c ⟨n + 1, hn⟩) (outsAt m c n (Nat.lt_of_succ_lt hn)).1).trans (funext fun i => by
        obtain ⟨r, rfl⟩ : ∃ r : Fin 512, i = ix1 r := ⟨i 0, eq_ix1 i⟩
        show (outsAt m c n (Nat.lt_of_succ_lt hn)).1 (ix1 r) + tileE (xb m c ⟨n + 1, hn⟩) (ix1 r) = _
        rw [ih, tileE_real (xb m c ⟨n + 1, hn⟩) X (n + 1) hn32 (fun r q => ((entry0 m c ⟨n + 1, hn⟩ r q).trans (congrFun hx _))) r]
        exact (acc_later X n hn h0 r).symm)))
      (congrArg₂ Prod.mk ((outAdd3_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩) (outsAt m c n (Nat.lt_of_succ_lt hn)).1 (outsAt m c n (Nat.lt_of_succ_lt hn)).2.1 (outsAt m c n (Nat.lt_of_succ_lt hn)).2.2.1 (outsAt m c n (Nat.lt_of_succ_lt hn)).2.2.2.1 (outsAt m c n (Nat.lt_of_succ_lt hn)).2.2.2.2).trans ((pay7_eq (yb m c ⟨n + 1, hn⟩) (outsAt m c n (Nat.lt_of_succ_lt hn)).2.1).trans (funext fun i => by
        obtain ⟨r, rfl⟩ : ∃ r : Fin 512, i = ix1 r := ⟨i 0, eq_ix1 i⟩
        show (outsAt m c n (Nat.lt_of_succ_lt hn)).2.1 (ix1 r) + tileE (yb m c ⟨n + 1, hn⟩) (ix1 r) = _
        rw [ih, tileE_real (yb m c ⟨n + 1, hn⟩) Y (n + 1) hn32 (fun r q => ((entry1 m c ⟨n + 1, hn⟩ r q).trans (congrFun hy _))) r]
        exact (acc_later Y n hn h0 r).symm)))
      (congrArg₂ Prod.mk ((outAdd4_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩) (outsAt m c n (Nat.lt_of_succ_lt hn)).1 (outsAt m c n (Nat.lt_of_succ_lt hn)).2.1 (outsAt m c n (Nat.lt_of_succ_lt hn)).2.2.1 (outsAt m c n (Nat.lt_of_succ_lt hn)).2.2.2.1 (outsAt m c n (Nat.lt_of_succ_lt hn)).2.2.2.2).trans ((pay8_eq (xb m c ⟨n + 1, hn⟩) (outsAt m c n (Nat.lt_of_succ_lt hn)).2.2.1).trans (funext fun i => by
        obtain ⟨r, rfl⟩ : ∃ r : Fin 512, i = ix1 r := ⟨i 0, eq_ix1 i⟩
        show (outsAt m c n (Nat.lt_of_succ_lt hn)).2.2.1 (ix1 r) + tileE (fun j => xb m c ⟨n + 1, hn⟩ j * xb m c ⟨n + 1, hn⟩ j) (ix1 r) = _
        rw [ih, tileE_real (fun j => xb m c ⟨n + 1, hn⟩ j * xb m c ⟨n + 1, hn⟩ j) (fun i => X i * X i) (n + 1) hn32 (fun r q => (congrArg₂ (· * ·) ((entry0 m c ⟨n + 1, hn⟩ r q).trans (congrFun hx _)) ((entry0 m c ⟨n + 1, hn⟩ r q).trans (congrFun hx _))).trans (EReal.coe_mul _ _).symm) r]
        exact (acc_later (fun i => X i * X i) n hn h0 r).symm)))
      (congrArg₂ Prod.mk ((outAdd5_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩) (outsAt m c n (Nat.lt_of_succ_lt hn)).1 (outsAt m c n (Nat.lt_of_succ_lt hn)).2.1 (outsAt m c n (Nat.lt_of_succ_lt hn)).2.2.1 (outsAt m c n (Nat.lt_of_succ_lt hn)).2.2.2.1 (outsAt m c n (Nat.lt_of_succ_lt hn)).2.2.2.2).trans ((pay9_eq (yb m c ⟨n + 1, hn⟩) (outsAt m c n (Nat.lt_of_succ_lt hn)).2.2.2.1).trans (funext fun i => by
        obtain ⟨r, rfl⟩ : ∃ r : Fin 512, i = ix1 r := ⟨i 0, eq_ix1 i⟩
        show (outsAt m c n (Nat.lt_of_succ_lt hn)).2.2.2.1 (ix1 r) + tileE (fun j => yb m c ⟨n + 1, hn⟩ j * yb m c ⟨n + 1, hn⟩ j) (ix1 r) = _
        rw [ih, tileE_real (fun j => yb m c ⟨n + 1, hn⟩ j * yb m c ⟨n + 1, hn⟩ j) (fun i => Y i * Y i) (n + 1) hn32 (fun r q => (congrArg₂ (· * ·) ((entry1 m c ⟨n + 1, hn⟩ r q).trans (congrFun hy _)) ((entry1 m c ⟨n + 1, hn⟩ r q).trans (congrFun hy _))).trans (EReal.coe_mul _ _).symm) r]
        exact (acc_later (fun i => Y i * Y i) n hn h0 r).symm)))
      ((outAdd6_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) hc1 hc2 (xb m c ⟨n + 1, hn⟩) (yb m c ⟨n + 1, hn⟩) (outsAt m c n (Nat.lt_of_succ_lt hn)).1 (outsAt m c n (Nat.lt_of_succ_lt hn)).2.1 (outsAt m c n (Nat.lt_of_succ_lt hn)).2.2.1 (outsAt m c n (Nat.lt_of_succ_lt hn)).2.2.2.1 (outsAt m c n (Nat.lt_of_succ_lt hn)).2.2.2.2).trans ((pay10_eq (xb m c ⟨n + 1, hn⟩) (yb m c ⟨n + 1, hn⟩) (outsAt m c n (Nat.lt_of_succ_lt hn)).2.2.2.2).trans (funext fun i => by
        obtain ⟨r, rfl⟩ : ∃ r : Fin 512, i = ix1 r := ⟨i 0, eq_ix1 i⟩
        show (outsAt m c n (Nat.lt_of_succ_lt hn)).2.2.2.2 (ix1 r) + tileE (fun j => xb m c ⟨n + 1, hn⟩ j * yb m c ⟨n + 1, hn⟩ j) (ix1 r) = _
        rw [ih, tileE_real (fun j => xb m c ⟨n + 1, hn⟩ j * yb m c ⟨n + 1, hn⟩ j) (fun i => X i * Y i) (n + 1) hn32 (fun r q => (congrArg₂ (· * ·) ((entry0 m c ⟨n + 1, hn⟩ r q).trans (congrFun hx _)) ((entry1 m c ⟨n + 1, hn⟩ r q).trans (congrFun hy _))).trans (EReal.coe_mul _ _).symm) r]
        exact (acc_later (fun i => X i * Y i) n hn h0 r).symm)))))))

end Cert.KernelIdeal.Stats

end
-- ==== Proof.KValue.Final.lean ====
/-
  The five output arrays after the region. An output block is written back after the last column tile of
  its row tile, when its running contents are the sums over all sixteen tiles, that is over the whole row;
  the two row tiles' blocks tile the 1024 rows. So each output array is the row vector of whole-row sums.
-/
import proofs.«173367_j5145370820692_1_alg».proof.Proof.KValue.Acc

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Pearson Idealize.ShloMosaic.ValueIdx

variable (m : (ℓ : Loc nD τ sig) → Buf (Elt Ideal) ℓ)

/-- At the last column tile of a row tile the running contents of a row are the sum over its whole array row:
    the sixteen tile sums are the sum over the 16384 columns split into tiles of 1024. -/
theorem acc_lastTile (φ : SIn.Idx → ℝ) (n : ℕ) (hn : n < cfg0.N) (h15 : n % 16 = 15) (i : S512.Idx) :
    acc φ n hn i = ((∑ k : Fin 16384, φ (ix2 (rowOf n (lt_of_lt_of_eq hn N_eq) (i 0)) k) : ℝ) : EReal) := by
  show ((∑ j ∈ Finset.range (n % 16 + 1), tileSum φ (rowOf n (lt_of_lt_of_eq hn N_eq) (i 0)) j : ℝ) : EReal) = _
  rw [h15, Finset.sum_range, sum_tiles (fun k => φ (ix2 (rowOf n (lt_of_lt_of_eq hn N_eq) (i 0)) k))]
  refine congrArg _ (Finset.sum_congr rfl fun j _ => ?_)
  unfold tileSum
  rw [dif_pos j.isLt]

/-- The same, read at the array index I at which row i of the block at position n sits: the entry of the
    row vector of whole-row sums. -/
theorem acc_lastTile_at (φ : SIn.Idx → ℝ) (n : ℕ) (hn : n < cfg0.N) (h15 : n % 16 = 15) (i : S512.Idx) (I : SRow.Idx)
    (hI : (I 0).val = n / 16 * 512 + (i 0).val) :
    acc φ n hn i = rowVec (fun R => ∑ k : Fin 16384, φ (ix2 R k)) I := by
  rw [acc_lastTile φ n hn h15 i]
  have hR : rowOf n (lt_of_lt_of_eq hn N_eq) (i 0) = I 0 := Fin.ext hI.symm
  rw [hR]
  rfl

/-- Every array row lies in the block of the last point of its row tile. -/
theorem lastTile_point (R : Fin 1024) :
    ∃ t : Fin cfg0.N, t.val % 16 = 15 ∧ t.val / 16 * 512 ≤ R.val ∧ R.val < t.val / 16 * 512 + 512 := by
  have hR : R.val < 1024 := R.isLt
  refine ⟨⟨R.val / 512 * 16 + 15, by rw [N_eq]; omega⟩, ?_, ?_, ?_⟩ <;> dsimp only <;> omega

/-! ## The five output windows -/

/-- The row-tile index of output window 2 at a grid point. -/
theorem rowTile2 : ∀ t : Fin cfg0.N, win0_2.index t (0 : Fin 1) = t.val / 16 :=
  (by decide +kernel : ∀ t : Fin grid0.N, win0_2.index t (0 : Fin 1) = t.val / 16)

/-- What a last column tile writes back from output window 2 is its block of the row vector of whole-row sums. -/
theorem writeBack2_eq (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal))
    (t : Fin cfg0.N) (hf : (cfg0.win 2).flush t = true) :
    (dats m 0 c).flushed 2 t = ((cfg0.win 2).blk t).view.read (Elt Ideal) (rowVec (rsum X)) := by
  show (cfg0.win 2).cut (grid0.coords t) ((dats m 0 c).after 2 t) = _
  rw [after_2, outsAt_eq m c X Y hx hy]
  funext y
  rw [View.read_apply]
  have hy5 : (y 0).val < 512 := (y 0).isLt
  exact acc_lastTile_at (X) t.val t.isLt ((flush0_2 t).mp hf) _ _ (by
    show win0_2.index t (0 : Fin 1) * 512 + 1 * (y 0).val = t.val / 16 * 512 + (y 0).val
    rw [rowTile2 t]; omega)

/-- The row-tile index of output window 3 at a grid point. -/
theorem rowTile3 : ∀ t : Fin cfg0.N, win0_3.index t (0 : Fin 1) = t.val / 16 :=
  (by decide +kernel : ∀ t : Fin grid0.N, win0_3.index t (0 : Fin 1) = t.val / 16)

/-- What a last column tile writes back from output window 3 is its block of the row vector of whole-row sums. -/
theorem writeBack3_eq (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal))
    (t : Fin cfg0.N) (hf : (cfg0.win 3).flush t = true) :
    (dats m 0 c).flushed 3 t = ((cfg0.win 3).blk t).view.read (Elt Ideal) (rowVec (rsum Y)) := by
  show (cfg0.win 3).cut (grid0.coords t) ((dats m 0 c).after 3 t) = _
  rw [after_3, outsAt_eq m c X Y hx hy]
  funext y
  rw [View.read_apply]
  have hy5 : (y 0).val < 512 := (y 0).isLt
  exact acc_lastTile_at (Y) t.val t.isLt ((flush0_3 t).mp hf) _ _ (by
    show win0_3.index t (0 : Fin 1) * 512 + 1 * (y 0).val = t.val / 16 * 512 + (y 0).val
    rw [rowTile3 t]; omega)

/-- The row-tile index of output window 4 at a grid point. -/
theorem rowTile4 : ∀ t : Fin cfg0.N, win0_4.index t (0 : Fin 1) = t.val / 16 :=
  (by decide +kernel : ∀ t : Fin grid0.N, win0_4.index t (0 : Fin 1) = t.val / 16)

/-- What a last column tile writes back from output window 4 is its block of the row vector of whole-row sums. -/
theorem writeBack4_eq (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal))
    (t : Fin cfg0.N) (hf : (cfg0.win 4).flush t = true) :
    (dats m 0 c).flushed 4 t = ((cfg0.win 4).blk t).view.read (Elt Ideal) (rowVec (rdot X X)) := by
  show (cfg0.win 4).cut (grid0.coords t) ((dats m 0 c).after 4 t) = _
  rw [after_4, outsAt_eq m c X Y hx hy]
  funext y
  rw [View.read_apply]
  have hy5 : (y 0).val < 512 := (y 0).isLt
  exact acc_lastTile_at (fun i => X i * X i) t.val t.isLt ((flush0_4 t).mp hf) _ _ (by
    show win0_4.index t (0 : Fin 1) * 512 + 1 * (y 0).val = t.val / 16 * 512 + (y 0).val
    rw [rowTile4 t]; omega)

/-- The row-tile index of output window 5 at a grid point. -/
theorem rowTile5 : ∀ t : Fin cfg0.N, win0_5.index t (0 : Fin 1) = t.val / 16 :=
  (by decide +kernel : ∀ t : Fin grid0.N, win0_5.index t (0 : Fin 1) = t.val / 16)

/-- What a last column tile writes back from output window 5 is its block of the row vector of whole-row sums. -/
theorem writeBack5_eq (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal))
    (t : Fin cfg0.N) (hf : (cfg0.win 5).flush t = true) :
    (dats m 0 c).flushed 5 t = ((cfg0.win 5).blk t).view.read (Elt Ideal) (rowVec (rdot Y Y)) := by
  show (cfg0.win 5).cut (grid0.coords t) ((dats m 0 c).after 5 t) = _
  rw [after_5, outsAt_eq m c X Y hx hy]
  funext y
  rw [View.read_apply]
  have hy5 : (y 0).val < 512 := (y 0).isLt
  exact acc_lastTile_at (fun i => Y i * Y i) t.val t.isLt ((flush0_5 t).mp hf) _ _ (by
    show win0_5.index t (0 : Fin 1) * 512 + 1 * (y 0).val = t.val / 16 * 512 + (y 0).val
    rw [rowTile5 t]; omega)

/-- The row-tile index of output window 6 at a grid point. -/
theorem rowTile6 : ∀ t : Fin cfg0.N, win0_6.index t (0 : Fin 1) = t.val / 16 :=
  (by decide +kernel : ∀ t : Fin grid0.N, win0_6.index t (0 : Fin 1) = t.val / 16)

/-- What a last column tile writes back from output window 6 is its block of the row vector of whole-row sums. -/
theorem writeBack6_eq (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal))
    (t : Fin cfg0.N) (hf : (cfg0.win 6).flush t = true) :
    (dats m 0 c).flushed 6 t = ((cfg0.win 6).blk t).view.read (Elt Ideal) (rowVec (rdot X Y)) := by
  show (cfg0.win 6).cut (grid0.coords t) ((dats m 0 c).after 6 t) = _
  rw [after_6, outsAt_eq m c X Y hx hy]
  funext y
  rw [View.read_apply]
  have hy5 : (y 0).val < 512 := (y 0).isLt
  exact acc_lastTile_at (fun i => X i * Y i) t.val t.isLt ((flush0_6 t).mp hf) _ _ (by
    show win0_6.index t (0 : Fin 1) * 512 + 1 * (y 0).val = t.val / 16 * 512 + (y 0).val
    rw [rowTile6 t]; omega)

/-- The five arrays of real inputs X, Y: row sums of X and Y, and row dot products X·X, Y·Y, X·Y. The two last
    points of the row tiles write back blocks of the row vector of whole-row sums, and those blocks cover the rows. -/
theorem arr2 (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal)) :
    ((dats m 0 c).arrAt 2 cfg0.N : FVec Ideal SRow .f32) = rowVec (rsum X) :=
  (dats m 0 c).arrAt_eq_of_cover 2 (rowVec (rsum X)) (writeBack2_eq m c X Y hx hy) fun i => by
    obtain ⟨t, h15, hlo, hhi⟩ := lastTile_point (i 0)
    refine ⟨t, (flush0_2 t).mpr h15, ?_⟩
    show i ∈ ((View.whole main_v0_0).slice (win0_2.rect t)).set
    rw [View.set_slice_whole, Rect.mem_set_unit]
    intro a
    match a with
    | ⟨0, _⟩ =>
      show win0_2.index t (0 : Fin 1) * 512 ≤ (i 0).val ∧ (i 0).val < win0_2.index t (0 : Fin 1) * 512 + 512
      rw [rowTile2 t]; exact ⟨hlo, hhi⟩

theorem arr3 (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal)) :
    ((dats m 0 c).arrAt 3 cfg0.N : FVec Ideal SRow .f32) = rowVec (rsum Y) :=
  (dats m 0 c).arrAt_eq_of_cover 3 (rowVec (rsum Y)) (writeBack3_eq m c X Y hx hy) fun i => by
    obtain ⟨t, h15, hlo, hhi⟩ := lastTile_point (i 0)
    refine ⟨t, (flush0_3 t).mpr h15, ?_⟩
    show i ∈ ((View.whole main_v0_1).slice (win0_3.rect t)).set
    rw [View.set_slice_whole, Rect.mem_set_unit]
    intro a
    match a with
    | ⟨0, _⟩ =>
      show win0_3.index t (0 : Fin 1) * 512 ≤ (i 0).val ∧ (i 0).val < win0_3.index t (0 : Fin 1) * 512 + 512
      rw [rowTile3 t]; exact ⟨hlo, hhi⟩

theorem arr4 (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal)) :
    ((dats m 0 c).arrAt 4 cfg0.N : FVec Ideal SRow .f32) = rowVec (rdot X X) :=
  (dats m 0 c).arrAt_eq_of_cover 4 (rowVec (rdot X X)) (writeBack4_eq m c X Y hx hy) fun i => by
    obtain ⟨t, h15, hlo, hhi⟩ := lastTile_point (i 0)
    refine ⟨t, (flush0_4 t).mpr h15, ?_⟩
    show i ∈ ((View.whole main_v0_2).slice (win0_4.rect t)).set
    rw [View.set_slice_whole, Rect.mem_set_unit]
    intro a
    match a with
    | ⟨0, _⟩ =>
      show win0_4.index t (0 : Fin 1) * 512 ≤ (i 0).val ∧ (i 0).val < win0_4.index t (0 : Fin 1) * 512 + 512
      rw [rowTile4 t]; exact ⟨hlo, hhi⟩

theorem arr5 (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal)) :
    ((dats m 0 c).arrAt 5 cfg0.N : FVec Ideal SRow .f32) = rowVec (rdot Y Y) :=
  (dats m 0 c).arrAt_eq_of_cover 5 (rowVec (rdot Y Y)) (writeBack5_eq m c X Y hx hy) fun i => by
    obtain ⟨t, h15, hlo, hhi⟩ := lastTile_point (i 0)
    refine ⟨t, (flush0_5 t).mpr h15, ?_⟩
    show i ∈ ((View.whole main_v0_3).slice (win0_5.rect t)).set
    rw [View.set_slice_whole, Rect.mem_set_unit]
    intro a
    match a with
    | ⟨0, _⟩ =>
      show win0_5.index t (0 : Fin 1) * 512 ≤ (i 0).val ∧ (i 0).val < win0_5.index t (0 : Fin 1) * 512 + 512
      rw [rowTile5 t]; exact ⟨hlo, hhi⟩

theorem arr6 (c : Dev nD) (X Y : SIn.Idx → ℝ)
    (hx : (V m c main_arg0 : FVec Ideal SIn .f32) = fun i => ((X i : ℝ) : EReal))
    (hy : (V m c main_arg1 : FVec Ideal SIn .f32) = fun i => ((Y i : ℝ) : EReal)) :
    ((dats m 0 c).arrAt 6 cfg0.N : FVec Ideal SRow .f32) = rowVec (rdot X Y) :=
  (dats m 0 c).arrAt_eq_of_cover 6 (rowVec (rdot X Y)) (writeBack6_eq m c X Y hx hy) fun i => by
    obtain ⟨t, h15, hlo, hhi⟩ := lastTile_point (i 0)
    refine ⟨t, (flush0_6 t).mpr h15, ?_⟩
    show i ∈ ((View.whole main_v0_4).slice (win0_6.rect t)).set
    rw [View.set_slice_whole, Rect.mem_set_unit]
    intro a
    match a with
    | ⟨0, _⟩ =>
      show win0_6.index t (0 : Fin 1) * 512 ≤ (i 0).val ∧ (i 0).val < win0_6.index t (0 : Fin 1) * 512 + 512
      rw [rowTile6 t]; exact ⟨hlo, hhi⟩

end Cert.KernelIdeal.Stats

end
-- ==== Proof.KTail.lean ====
/-
  The kernel's result after the host lines that follow the region: the common tail applied to the kernel's
  three statistics of the five output arrays (row sums of both inputs, and the three rows of dot products).
-/
import proofs.«173367_j5145370820692_1_alg».proof.Proof.Gen.KernelIdeal.Frame
import proofs.«173367_j5145370820692_1_alg».proof.Proof.Spec
import Idealize.ShloMosaic.Lib.StableHlo.Run

set_option maxRecDepth 16384

noncomputable section

namespace Cert.KernelIdeal.Stats

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Pearson

variable (m : (ℓ : Loc nD τ sig) → Buf (Elt Ideal) ℓ)

/-- The result buffer after the host tail, for any proof data whose five output arrays after the region are
    `A2 … A6`: the tail of (A4 − (A2/16384)·A2, A5 − (A3/16384)·A3, A6 − (A2/16384)·A3). -/
theorem tail_value (dats : (p : Fin 1) → (c : Dev nD) → Dat τ (Elt Ideal) Unit ℕ (UR sig nD τ) ℕ (cfgs p) c) (c : Dev nD)
    (A2 A3 A4 A5 A6 : FVec Ideal SRow .f32)
    (h2 : ((dats 0 c).arrAt 2 cfg0.N : FVec Ideal SRow .f32) = A2) (h3 : ((dats 0 c).arrAt 3 cfg0.N : FVec Ideal SRow .f32) = A3)
    (h4 : ((dats 0 c).arrAt 4 cfg0.N : FVec Ideal SRow .f32) = A4) (h5 : ((dats 0 c).arrAt 5 cfg0.N : FVec Ideal SRow .f32) = A5)
    (h6 : ((dats 0 c).arrAt 6 cfg0.N : FVec Ideal SRow .f32) = A6) :
    (Pipeline.afterTail₀ cfgs dats 0 (V0 m) [hostOps1, hostOps1_1, hostOps1_2, hostOps1_3, hostOps1_4] c main_v36 : FVec Ideal SSc .f32)
      = tail bcast_S_S1024 reducesTo_S1024_S_d0 h_S_ (kstat bcast_S_S1024 A4 A2 A2) (kstat bcast_S_S1024 A5 A3 A3) (kstat bcast_S_S1024 A6 A2 A3) := by
  -- the five stretches of host lines run as one line over the contents the region leaves
  unfold Pipeline.afterTail₀
  simp only [hostOps1, hostOps1_1, hostOps1_2, hostOps1_3, hostOps1_4, List.flatten_cons, List.flatten_nil, List.append_nil, List.cons_append, List.nil_append]
  -- each line's result is its function of its operands' results; what is left reads only the five output arrays
  after_results_simp
  -- the two inlined selects carry their values at the buffers' own types: the transports are identities
  simp only [TRef.ofBuf, TRef.toBuf, cast_eq]
  -- the five arrays after the region: the row sums of both inputs and the three rows of dot products
  have e2 : Pipeline.withArrays (cfgs 0).spec c (V0 m c) (fun w => (dats 0 c).arrAt w (cfgs 0).N) (Proc.devRef .tc main_v0_0) = A2 :=
    (Pipeline.withArrays_arr spec0 launch0.win.arr_inj c _ _ 2).trans h2
  have e3 : Pipeline.withArrays (cfgs 0).spec c (V0 m c) (fun w => (dats 0 c).arrAt w (cfgs 0).N) (Proc.devRef .tc main_v0_1) = A3 :=
    (Pipeline.withArrays_arr spec0 launch0.win.arr_inj c _ _ 3).trans h3
  have e4 : Pipeline.withArrays (cfgs 0).spec c (V0 m c) (fun w => (dats 0 c).arrAt w (cfgs 0).N) (Proc.devRef .tc main_v0_2) = A4 :=
    (Pipeline.withArrays_arr spec0 launch0.win.arr_inj c _ _ 4).trans h4
  have e5 : Pipeline.withArrays (cfgs 0).spec c (V0 m c) (fun w => (dats 0 c).arrAt w (cfgs 0).N) (Proc.devRef .tc main_v0_3) = A5 :=
    (Pipeline.withArrays_arr spec0 launch0.win.arr_inj c _ _ 5).trans h5
  have e6 : Pipeline.withArrays (cfgs 0).spec c (V0 m c) (fun w => (dats 0 c).arrAt w (cfgs 0).N) (Proc.devRef .tc main_v0_4) = A6 :=
    (Pipeline.withArrays_arr spec0 launch0.win.arr_inj c _ _ 6).trans h6
  rw [e2, e3, e4, e5, e6]
  -- sp = A4 − (A2/16384)·A2, st = A5 − (A3/16384)·A3, num = A6 − (A2/16384)·A3, then the common tail, term for term
  rfl

end Cert.KernelIdeal.Stats

end
-- ==== Proof.RefValue.lean ====
/-
  The reference's result as the common tail of its centred row statistics.
-/
import proofs.«173367_j5145370820692_1_alg».proof.Proof.Gen.ReferenceIdeal.Run
import proofs.«173367_j5145370820692_1_alg».proof.Proof.Gen.ReferenceIdeal.Read
import proofs.«173367_j5145370820692_1_alg».proof.Proof.Spec
import proofs.«173367_j5145370820692_1_alg».proof.Proof.Algebra

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Pearson

/-- The word of the row length denotes the real number 16384. -/
theorem ofBits_16384 : Ideal.ofBits .f32 0x46800000#32 = ((16384 : ℝ) : EReal) := by
  simp [Ideal.ofBits, Ideal.ieee, -EReal.coe_mul]; norm_num

/-- A real array read as an array of extended reals. -/
def arr (X : SIn.Idx → ℝ) : FVec Ideal SIn .f32 := fun i => ((X i : ℝ) : EReal)

/-- The index the row sum reads at row `i` and column `k` is `(i, k)`. -/
theorem idx_row (i : S1024.Idx) (k : Fin 16384) : Read.idx_main_v0 i k = ix2 (i 0) k := by
  funext a; match a with | ⟨0, _⟩ => rfl | ⟨1, _⟩ => rfl

/-- The row mean the reference broadcasts along the columns: at row `r` it is `S_X / 16384`. -/
theorem mean_at (X : SIn.Idx → ℝ) (j : S1024x1.Idx) :
    Read.val_main_v3 (F := Ideal) (arr X) j = ((rsum X (j 0) / 16384 : ℝ) : EReal) := by
  rw [Read.val_main_v3_apply, Read.val_main_v1_apply, Read.val_main_v0_apply, Read.val_main_v2_apply,
    Read.val_main_cst_0_apply, Read.val_main_cst_apply]
  show Ideal.div (Ideal.ofBits .f32 0x00000000#32 + ∑ k : Fin 16384, arr X (Read.idx_main_v0 (Read.idx_main_v1 j) k))
      (Ideal.ofBits .f32 0x46800000#32) = _
  rw [Ideal.ofBits_zero_f32, zero_add, ofBits_16384, Ideal.div_coe (by norm_num)]
  have hs : (∑ k : Fin 16384, arr X (Read.idx_main_v0 (Read.idx_main_v1 j) k)) = ((rsum X (j 0) : ℝ) : EReal) := by
    unfold rsum
    rw [coe_sum]
    exact Finset.sum_congr rfl fun k _ => congrArg (fun t => ((X t : ℝ) : EReal)) (idx_row _ k)
  rw [hs, ← EReal.coe_mul, mul_one_div]

/-- A centred entry: the entry less its row's mean. -/
theorem centre_at (X : SIn.Idx → ℝ) (r : Fin 1024) (k : Fin 16384) :
    Read.val_main_v9 (F := Ideal) (arr X) (ix2 r k) = ((X (ix2 r k) - rsum X r / 16384 : ℝ) : EReal) := by
  rw [Read.val_main_v9_apply, Read.val_main_v8_apply, mean_at]
  exact (EReal.coe_sub _ _).symm

/-- The second input is centred by the same expression as the first. -/
theorem centre_snd (x : FVec Ideal SIn .f32) : Read.val_main_v11 (F := Ideal) x = Read.val_main_v9 (F := Ideal) x := rfl

/-- The reduce-add of the products of two centred arrays is the centred cross sum, row by row. -/
theorem stat_real (X Y : SIn.Idx → ℝ) :
    Read.val_main_v17 (F := Ideal) (arr X) (arr Y) = rowVec (centred X Y) := by
  funext i
  obtain ⟨r, rfl⟩ : ∃ r : Fin 1024, i = ix1 r := ⟨i 0, eq_ix1 i⟩
  rw [Read.val_main_v17_apply, Read.val_main_cst_5_apply]
  show Ideal.ofBits .f32 0x00000000#32
      + ∑ k : Fin 16384, Read.val_main_v16 (F := Ideal) (arr X) (arr Y) (Read.idx_main_v17 (ix1 r) k)
    = ((centred X Y r : ℝ) : EReal)
  rw [Ideal.ofBits_zero_f32, zero_add]
  unfold centred
  rw [coe_sum]
  refine Finset.sum_congr rfl fun k _ => ?_
  rw [show Read.idx_main_v17 (ix1 r) k = ix2 r k from idx_row (ix1 r) k, Read.val_main_v16_apply, centre_snd,
    centre_at, centre_at]
  exact (EReal.coe_mul _ _).symm

/-- Of real inputs `X`, `Y` the reference's composed result term is the tail of the centred statistics. -/
theorem ref_result (m : (ℓ : Loc nD τ sig) → Buf (Elt Ideal) ℓ) (c : Dev nD) (X Y : SIn.Idx → ℝ)
    (hx : (m ((c.tc : Thread nD τ).loc main_arg0) : FVec Ideal SIn .f32) = fun i => ((X i : ℝ) : EReal))
    (hy : (m ((c.tc : Thread nD τ).loc main_arg1) : FVec Ideal SIn .f32) = fun i => ((Y i : ℝ) : EReal)) :
    (Cert.ReferenceIdeal.Value.res_main_v43 (F := Ideal) m c : FVec Ideal SSc .f32)
      = tail bcast_S_S1024 reducesTo_S1024_S_d0 h_S_ (rowVec (centred X X)) (rowVec (centred Y Y)) (rowVec (centred X Y)) := by
  refine (Read.val_main_v43_eq (F := Ideal) m c).trans ?_
  rw [show m ((c.tc : Thread nD τ).loc main_arg0) = arr X from hx,
    show m ((c.tc : Thread nD τ).loc main_arg1) = arr Y from hy]
  refine Eq.trans (b := tail bcast_S_S1024 reducesTo_S1024_S_d0 h_S_
    (Read.val_main_v17 (F := Ideal) (arr X) (arr X)) (Read.val_main_v17 (F := Ideal) (arr Y) (arr Y))
    (Read.val_main_v17 (F := Ideal) (arr X) (arr Y))) ?_ ?_
  · rfl
  · rw [stat_real X X, stat_real Y Y, stat_real X Y]

end Cert.ReferenceIdeal.RefValue

end
-- ==== Proof.Finite.lean ====
/-
  Under the precondition every entry of both inputs is a real number.
-/
import proofs.«173367_j5145370820692_1_alg».proof.Proof.Spec
import proofs.«173367_j5145370820692_1_alg».proof.Pre_finite_inputs
import Idealize.ShloMosaic.Lib.ReduceAll

noncomputable section

namespace Cert.Pearson

open Idealize.ShloMosaic Idealize.ShloMosaic.ValueIdx

/-- The word `0x7F800000` denotes +∞. -/
theorem word_posInf : Ideal.ofBits .f32 0x7F800000#32 = ⊤ := by
  simp [Ideal.ofBits, Ideal.ieee]

/-- An extended real whose absolute value max(x, −x) lies below +∞ is a real number: at −∞ and at +∞ that
    maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- A strict comparison of extended reals that came out 1 says the left side is below the right. -/
theorem lt_of_cmp_olt {a b : EReal} (h : Ideal.cmp .olt a b = 1#1) : a < b := by
  by_contra hn
  have e : Ideal.cmp .olt a b = 0#1 := by simp [Ideal.cmp, hn]
  rw [e] at h
  exact absurd h (by decide)

/-- An entry whose absolute value compares below the word of +∞ is a real number. -/
theorem real_of_entry [Cert.Pre_finite_inputs.Facts] (z : FVec Ideal SIn .f32) (i : SIn.Idx)
    (hz : cmpf .olt (Host.absf z)
      (broadcastInDim Cert.Pre_finite_inputs.S1024x16384 ![] Cert.Pre_finite_inputs.Facts.bcast_S_S1024x16384
        (constant (F := Ideal) Cert.Pre_finite_inputs.S_ .f32 0x7F800000#32)) i = 1#1) :
    ∃ r : ℝ, z i = (r : EReal) := by
  -- At entry i the comparison is max(z_i, −z_i) < +∞.
  have hz' : Ideal.cmp .olt (max (z i) (-(z i))) (Ideal.ofBits .f32 0x7F800000#32) = 1#1 := hz
  rw [word_posInf] at hz'
  exact real_of_abs_lt_top (z i) (lt_of_cmp_olt hz')

/-- If `finite_inputs` holds of two arrays of extended reals then each is the image of a real array. -/
theorem real_of_finite [Cert.Pre_finite_inputs.Facts] (x y : FVec Ideal SIn .f32)
    (h : Cert.Pre_finite_inputs.fn (F := Ideal) x y = fun _ => 1#1) :
    ∃ X Y : SIn.Idx → ℝ, (x = fun i => ((X i : ℝ) : EReal)) ∧ (y = fun i => ((Y i : ℝ) : EReal)) := by
  -- The predicate is the conjunction of two conjunctions over all entries, one per input, of |entry| < +∞.
  have h0 := congrFun h ix0
  dsimp only [Cert.Pre_finite_inputs.fn] at h0
  haveI : Subsingleton Cert.Pre_finite_inputs.S_.Idx := ⟨fun a b => funext fun d => d.elim0⟩
  obtain ⟨hx, hy⟩ := IntOp.andi_eq_one.1 h0
  -- A conjunction over all entries that is 1 has a 1 at every entry, so every entry is a real; choose them.
  have ex : ∀ i : SIn.Idx, ∃ r : ℝ, x i = (r : EReal) := fun i =>
    real_of_entry x i (Host.reduce_andi_all _ _ _ _ _ hx i)
  have ey : ∀ i : SIn.Idx, ∃ r : ℝ, y i = (r : EReal) := fun i =>
    real_of_entry y i (Host.reduce_andi_all _ _ _ _ _ hy i)
  choose X hX using ex
  choose Y hY using ey
  exact ⟨X, Y, funext hX, funext hY⟩

end Cert.Pearson

end
-- ==== Proof.lean ====
/-
  Per-row Pearson loss: the kernel streams both 1024 × 16384 inputs through 512 × 1024 blocks and keeps,
  per row, the five sums Σx, Σy, Σx², Σy², Σxy accumulated over the sixteen column tiles; the host lines
  after it form Σx² − (Σx/n)·Σx, Σy² − (Σy/n)·Σy, Σxy − (Σx/n)·Σy with n = 16384 and apply the common
  tail. The reference centres each row by its mean first and sums the centred products, then applies the
  same tail. Under the precondition every entry is a real number, and over the reals
      Σ_k (x_k − Σx/n)(y_k − Σy/n) = Σ_k x_k y_k − (Σx/n)·Σy,
  so the three statistics agree and with them the results.

  The three frames: both kernels' by the body obligation at every grid point (two cases: the first column
  tile of a row tile stores the block's row statistics, a later one adds them to the running contents);
  the reference's is its run with the result dropped. The idealization rewrote nothing.
-/
import proofs.«173367_j5145370820692_1_alg».proof.Defs
import proofs.«173367_j5145370820692_1_alg».proof.Proof.Gen.Kernel
import proofs.«173367_j5145370820692_1_alg».proof.Proof.Gen.KernelIdeal
import proofs.«173367_j5145370820692_1_alg».proof.Proof.Gen.ReferenceIdeal
import proofs.«173367_j5145370820692_1_alg».proof.Proof.Gen.Pre_finite_inputs
import proofs.«173367_j5145370820692_1_alg».proof.Proof.Gen.ReferenceIdeal.Run
import proofs.«173367_j5145370820692_1_alg».proof.Proof.FrameK.Obligation
import proofs.«173367_j5145370820692_1_alg».proof.Proof.FrameKI.Obligation
import proofs.«173367_j5145370820692_1_alg».proof.Proof.KValue.Final
import proofs.«173367_j5145370820692_1_alg».proof.Proof.KTail
import proofs.«173367_j5145370820692_1_alg».proof.Proof.RefValue
import proofs.«173367_j5145370820692_1_alg».proof.Proof.Algebra
import proofs.«173367_j5145370820692_1_alg».proof.Proof.Finite

set_option maxRecDepth 16384

noncomputable section

namespace Cert.Proof

open Idealize.ShloMosaic Idealize.ShloMosaic.TcCoe Idealize.SL.Sem
open Idealize.ShloMosaic.Pipeline (Dat)
open Cert.Pearson

/-! ## The frames -/

theorem frame_k : Cert.frame_Kernel := fun m ρ _ => Cert.Kernel.Stats.frame (F := Bits) m ρ
theorem frame_ki : Cert.frame_KernelIdeal := fun m ρ _ => Cert.KernelIdeal.Stats.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The kernel's run, its result named -/

section Kernel
open Cert.KernelIdeal Cert.KernelIdeal.Gen Cert.KernelIdeal.Stats

/-- The result buffer is no array of the pipeline. -/
theorem result_rest : main_v36 ∈ Pipeline.restRefs sig (cfgs 0).spec :=
  Pipeline.mem_restRefs_of main_v36 rfl (fun w => by fin_cases w <;> decide)

/-- What the kernel's result buffer holds after the run. -/
abbrev kresult (m : (ℓ : Loc nD τ sig) → Buf (Elt Ideal) ℓ) (c : Dev nD) : Buf (Elt Ideal) ((c.tc : Thread nD τ).loc main_v36) :=
  Pipeline.afterTail₀ cfgs (dats m) 0 (V0 m) [hostOps1, hostOps1_1, hostOps1_2, hostOps1_3, hostOps1_4] c main_v36

/-- The idealized kernel runs to the end with its result at `kresult` and both arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = kresult m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v36 result_rest,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main (F := Ideal) m ρ)

/-- Of real inputs the kernel's result is the tail of the moment-form statistics. -/
theorem kresult_eq (m : (ℓ : Loc nD τ sig) → Buf (Elt Ideal) ℓ) (c : Dev nD) (X Y : SIn.Idx → ℝ)
    (hx : (m ((c.tc : Thread nD τ).loc main_arg0) : FVec Ideal SIn .f32) = fun i => ((X i : ℝ) : EReal))
    (hy : (m ((c.tc : Thread nD τ).loc main_arg1) : FVec Ideal SIn .f32) = fun i => ((Y i : ℝ) : EReal)) :
    (kresult m c : FVec Ideal SSc .f32)
      = tail bcast_S_S1024 reducesTo_S1024_S_d0 h_S_ (rowVec (moment X X)) (rowVec (moment Y Y)) (rowVec (moment X Y)) := by
  have e := tail_value m (dats m) c _ _ _ _ _ (arr2 m c X Y hx hy) (arr3 m c X Y hx hy) (arr4 m c X Y hx hy) (arr5 m c X Y hx hy) (arr6 m c X Y hx hy)
  rw [kstat_rowVec, kstat_rowVec, kstat_rowVec] at e
  exact e

end Kernel

/-! ## The claims -/

/-- Both programs end with equal results: the reference's centred statistics are the kernel's moment-form ones. -/
theorem algebraic : Cert.algebraic_KernelIdeal_ReferenceIdeal := by
  intro m ρ m' ρ' hpre hagree
  refine ⟨fun c => kresult m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨X, Y, hx, hy⟩ := real_of_finite _ _ (hpre c)
  have hx' := (hagree c).1.trans hx
  have hy' := (hagree c).2.trans hy
  refine (Cert.ReferenceIdeal.RefValue.ref_result m' c X Y hx' hy').trans ?_
  rw [show centred X X = moment X X from funext (centred_eq_moment X X),
    show centred Y Y = moment Y Y from funext (centred_eq_moment Y Y),
    show centred X Y = moment X Y from funext (centred_eq_moment X Y)]
  exact (kresult_eq m c X Y hx hy).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
